-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64x64 .f32) (main_arg9 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S64x64 .f32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : IVec S1600000 32) (main_arg11 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 97
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .i32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x64, .bf16⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .bf16⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .bf16⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .bf16⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .bf16⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .bf16⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S1x64, .f32⟩
  | .hbm, ⟨96, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1_0 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S1600000_S1600000x1_S1600000_n_0_n_n_0_1_1_wf : GatherDims.WF S1600000 S1600000x1 S1600000 [] [0] [] [0] [] 1 ![1]
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v35) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v63) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x64, .f32⟩
  | .hbm, ⟨89, _⟩ => ⟨S_, .f32⟩
  | .hbm, ⟨90, _⟩ => ⟨S100000x64, .f32⟩
  | .hbm, ⟨91, _⟩ => ⟨S1600000x1, .i32⟩
  | .hbm, ⟨92, _⟩ => ⟨S100000x64, .f32⟩
  | .hbm, ⟨93, _⟩ => ⟨S_, .f32⟩
  | .hbm, ⟨94, _⟩ => ⟨S1600000, .f32⟩
  | .hbm, ⟨95, _⟩ => ⟨S_, .f32⟩
  | .hbm, ⟨96, _⟩ => ⟨S100000, .f32⟩
  | .hbm, ⟨97, _⟩ => ⟨S1600000x1, .i32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KChain.lean ====
/-
  The kernel's program between its launches, read back.  Before the first launch the host sorts the edges by
  destination and takes the source and destination arrays through the sort, counts the in-degrees and takes
  their reciprocals; before every launch it gathers the current features' rows by sorted source and sums them
  by sorted destination.  Each buffer a launch reads is named here as that function of the argument arrays,
  boundary by boundary, down to the result.
-/
import proofs.«427492_j7026566496443_3_alg».proof.Proof.Gen.KernelIdeal.Frame
import Idealize.ShloMosaic.Lib.StableHlo.Run

set_option maxRecDepth 16384

noncomputable section

namespace Cert.KernelIdeal.KSide

open Cert.KernelIdeal Cert.KernelIdeal.Gen Idealize.ShloMosaic Idealize.ShloMosaic.TcCoe Idealize.SL.Sem
open Idealize.ShloMosaic.StableHlo

section Terms
variable {F : FTy → Type} [FloatOps F]

/-- The position numbers carried through the stable sort of the destinations. -/
def ordTerm (dst : IVec S1600000 32) : IVec S1600000 32 :=
  (Host.sort2 S1600000 0 comparator_i32_i32_d0 dst (iotaInDim S1600000 32 0)).2

/-- An edge array taken through the sorted position numbers. -/
def takeTerm (x ord : IVec S1600000 32) : IVec S1600000 32 :=
  Host.gather gather_S1600000_S1600000x1_S1600000_n_0_n_n_0_1_1 x
    (broadcastInDim S1600000x1 ![0] bcast_S1600000_S1600000x1_0
      (select (cmpi .slt ord (broadcastInDim S1600000 ![] bcast_S_S1600000 (constantI S_ 32 0#32)))
        (addi ord (broadcastInDim S1600000 ![] bcast_S_S1600000 (constantI S_ 32 1600000#32))) ord))

/-- A one per edge summed onto the node its destination names. -/
def degTerm (dstS : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dstS)
    (broadcastInDim S1600000 ![] bcast_S_S1600000 (constant S_ .f32 0x3F800000#32))

/-- One over the in-degree (at least one), as a column. -/
def invTerm (dstS : IVec S1600000 32) : FVec F S100000x1 .f32 :=
  shapeCast S100000x1
    (Host.divf (broadcastInDim S100000 ![] bcast_S_S100000 (constant S_ .f32 0x3F800000#32))
      (maximumf (degTerm dstS) (broadcastInDim S100000 ![] bcast_S_S100000 (constant S_ .f32 0x3F800000#32))))
    shapeCasts_S100000_S100000x1

/-- The rows the sorted sources name (through the narrower float format and back), summed onto the rows the sorted
    destinations name. -/
def aggTerm (feat : FVec F S100000x64 .f32) (srcS dstS : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dstS)
    (extf .f32 (Host.gather gather_S100000x64_S1600000x1_S1600000x64_1_0_n_n_0_1_164 (truncf .bf16 feat bitsLt_bf16_f32)
      (broadcastInDim S1600000x1 ![0] bcast_S1600000_S1600000x1_0
        (select (cmpi .slt srcS (broadcastInDim S1600000 ![] bcast_S_S1600000 (constantI S_ 32 0#32)))
          (addi srcS (broadcastInDim S1600000 ![] bcast_S_S1600000 (constantI S_ 32 100000#32))) srcS))) bitsLt_bf16_f32)

/-- The bias as a row. -/
def browTerm (b : FVec F S64 .f32) : FVec F S1x64 .f32 := shapeCast S1x64 b shapeCasts_S64_S1x64

end Terms

variable {F : FTy → Type} [FloatOps F]
variable (m : (ℓ : Loc nD τ sig) → Buf (Elt F) ℓ) (ρ : Dev nD → PrngReg) (c : Dev nD)

/-- The sorted sources and destinations, as functions of the launch memory. -/
abbrev srcS : IVec S1600000 32 :=
  takeTerm (m ((c : Thread nD τ).loc main_arg10)) (ordTerm (m ((c : Thread nD τ).loc main_arg11)))
abbrev dstS : IVec S1600000 32 :=
  takeTerm (m ((c : Thread nD τ).loc main_arg11)) (ordTerm (m ((c : Thread nD τ).loc main_arg11)))

/-! ## At the first launch's entry -/

theorem W2_v7 : W2 m ρ c (Proc.devRef .tc main_v7) = srcS m c := by
  dsimp only [W2, W1, hostOps0_1, hostOps0]
  after_results_simp <;> rfl

theorem W2_v14 : W2 m ρ c (Proc.devRef .tc main_v14) = dstS m c := by
  dsimp only [W2, W1, hostOps0_1, hostOps0]
  after_results_simp <;> rfl

theorem W2_v23 : W2 m ρ c (Proc.devRef .tc main_v23) = invTerm (F := F) (dstS m c) := by
  dsimp only [W2, W1, hostOps0_1, hostOps0]
  after_results_simp <;> rfl

theorem W2_v35 : W2 m ρ c (Proc.devRef .tc main_v35) = aggTerm (m ((c : Thread nD τ).loc main_arg0)) (srcS m c) (dstS m c) := by
  dsimp only [W2, W1, hostOps0_1, hostOps0]
  after_results_simp <;> rfl

theorem W2_v36 : W2 m ρ c (Proc.devRef .tc main_v36) = browTerm (m ((c : Thread nD τ).loc main_arg3)) := by
  dsimp only [W2, W1, hostOps0_1, hostOps0]
  after_results_simp <;> rfl

theorem W2_arg0 : W2 m ρ c (Proc.devRef .tc main_arg0) = m ((c : Thread nD τ).loc main_arg0) := by
  dsimp only [W2, W1, hostOps0_1, hostOps0]
  after_results_simp <;> rfl

theorem W2_arg1 : W2 m ρ c (Proc.devRef .tc main_arg1) = m ((c : Thread nD τ).loc main_arg1) := by
  dsimp only [W2, W1, hostOps0_1, hostOps0]
  after_results_simp <;> rfl

theorem W2_arg2 : W2 m ρ c (Proc.devRef .tc main_arg2) = m ((c : Thread nD τ).loc main_arg2) := by
  dsimp only [W2, W1, hostOps0_1, hostOps0]
  after_results_simp <;> rfl

theorem W2_arg4 : W2 m ρ c (Proc.devRef .tc main_arg4) = m ((c : Thread nD τ).loc main_arg4) := by
  dsimp only [W2, W1, hostOps0_1, hostOps0]
  after_results_simp <;> rfl

theorem W2_arg5 : W2 m ρ c (Proc.devRef .tc main_arg5) = m ((c : Thread nD τ).loc main_arg5) := by
  dsimp only [W2, W1, hostOps0_1, hostOps0]
  after_results_simp <;> rfl

theorem W2_arg6 : W2 m ρ c (Proc.devRef .tc main_arg6) = m ((c : Thread nD τ).loc main_arg6) := by
  dsimp only [W2, W1, hostOps0_1, hostOps0]
  after_results_simp <;> rfl

theorem W2_arg7 : W2 m ρ c (Proc.devRef .tc main_arg7) = m ((c : Thread nD τ).loc main_arg7) := by
  dsimp only [W2, W1, hostOps0_1, hostOps0]
  after_results_simp <;> rfl

theorem W2_arg8 : W2 m ρ c (Proc.devRef .tc main_arg8) = m ((c : Thread nD τ).loc main_arg8) := by
  dsimp only [W2, W1, hostOps0_1, hostOps0]
  after_results_simp <;> rfl

theorem W2_arg9 : W2 m ρ c (Proc.devRef .tc main_arg9) = m ((c : Thread nD τ).loc main_arg9) := by
  dsimp only [W2, W1, hostOps0_1, hostOps0]
  after_results_simp <;> rfl

/-! ## Across the first launch: its output array is what its write-backs leave; every other buffer is as entered -/

theorem W3_v37 : W3 m ρ c (Proc.devRef .tc main_v37) = (dat0 (V2 m ρ) c).arrAt 6 cfg0.N := W3_arr m ρ c 6
theorem W3_v23 : W3 m ρ c (Proc.devRef .tc main_v23) = W2 m ρ c (Proc.devRef .tc main_v23) :=
  (W3_arr m ρ c 2).trans (((dat0 (V2 m ρ) c).arrAt_in 2 rfl _).trans (A_eq0 (V2 m ρ) c 2))
theorem W3_v7 : W3 m ρ c (Proc.devRef .tc main_v7) = W2 m ρ c (Proc.devRef .tc main_v7) := W3_of_ne m ρ c main_v7 (by decide)
theorem W3_v14 : W3 m ρ c (Proc.devRef .tc main_v14) = W2 m ρ c (Proc.devRef .tc main_v14) := W3_of_ne m ρ c main_v14 (by decide)
theorem W3_arg4 : W3 m ρ c (Proc.devRef .tc main_arg4) = W2 m ρ c (Proc.devRef .tc main_arg4) := W3_of_ne m ρ c main_arg4 (by decide)
theorem W3_arg5 : W3 m ρ c (Proc.devRef .tc main_arg5) = W2 m ρ c (Proc.devRef .tc main_arg5) := W3_of_ne m ρ c main_arg5 (by decide)
theorem W3_arg6 : W3 m ρ c (Proc.devRef .tc main_arg6) = W2 m ρ c (Proc.devRef .tc main_arg6) := W3_of_ne m ρ c main_arg6 (by decide)
theorem W3_arg7 : W3 m ρ c (Proc.devRef .tc main_arg7) = W2 m ρ c (Proc.devRef .tc main_arg7) := W3_of_ne m ρ c main_arg7 (by decide)
theorem W3_arg8 : W3 m ρ c (Proc.devRef .tc main_arg8) = W2 m ρ c (Proc.devRef .tc main_arg8) := W3_of_ne m ρ c main_arg8 (by decide)
theorem W3_arg9 : W3 m ρ c (Proc.devRef .tc main_arg9) = W2 m ρ c (Proc.devRef .tc main_arg9) := W3_of_ne m ρ c main_arg9 (by decide)

/-! ## At the second launch's entry -/

theorem W4_v49 : W4 m ρ c (Proc.devRef .tc main_v49)
    = aggTerm (W3 m ρ c (Proc.devRef .tc main_v37)) (W3 m ρ c (Proc.devRef .tc main_v7)) (W3 m ρ c (Proc.devRef .tc main_v14)) := by
  dsimp only [W4, hostOps1]
  after_results_simp <;> rfl
theorem W4_v50 : W4 m ρ c (Proc.devRef .tc main_v50) = browTerm (W3 m ρ c (Proc.devRef .tc main_arg6)) := by
  dsimp only [W4, hostOps1]
  after_results_simp <;> rfl
theorem W4_v37 : W4 m ρ c (Proc.devRef .tc main_v37) = W3 m ρ c (Proc.devRef .tc main_v37) := by
  dsimp only [W4, hostOps1]
  after_results_simp <;> rfl
theorem W4_v23 : W4 m ρ c (Proc.devRef .tc main_v23) = W3 m ρ c (Proc.devRef .tc main_v23) := by
  dsimp only [W4, hostOps1]
  after_results_simp <;> rfl
theorem W4_v7 : W4 m ρ c (Proc.devRef .tc main_v7) = W3 m ρ c (Proc.devRef .tc main_v7) := by
  dsimp only [W4, hostOps1]
  after_results_simp <;> rfl
theorem W4_v14 : W4 m ρ c (Proc.devRef .tc main_v14) = W3 m ρ c (Proc.devRef .tc main_v14) := by
  dsimp only [W4, hostOps1]
  after_results_simp <;> rfl
theorem W4_arg4 : W4 m ρ c (Proc.devRef .tc main_arg4) = W3 m ρ c (Proc.devRef .tc main_arg4) := by
  dsimp only [W4, hostOps1]
  after_results_simp <;> rfl
theorem W4_arg5 : W4 m ρ c (Proc.devRef .tc main_arg5) = W3 m ρ c (Proc.devRef .tc main_arg5) := by
  dsimp only [W4, hostOps1]
  after_results_simp <;> rfl
theorem W4_arg7 : W4 m ρ c (Proc.devRef .tc main_arg7) = W3 m ρ c (Proc.devRef .tc main_arg7) := by
  dsimp only [W4, hostOps1]
  after_results_simp <;> rfl
theorem W4_arg8 : W4 m ρ c (Proc.devRef .tc main_arg8) = W3 m ρ c (Proc.devRef .tc main_arg8) := by
  dsimp only [W4, hostOps1]
  after_results_simp <;> rfl
theorem W4_arg9 : W4 m ρ c (Proc.devRef .tc main_arg9) = W3 m ρ c (Proc.devRef .tc main_arg9) := by
  dsimp only [W4, hostOps1]
  after_results_simp <;> rfl

/-! ## Across the second launch -/

theorem W5_v51 : W5 m ρ c (Proc.devRef .tc main_v51) = (dat1 (V4 m ρ) c).arrAt 6 cfg1.N := W5_arr m ρ c 6
theorem W5_v23 : W5 m ρ c (Proc.devRef .tc main_v23) = W4 m ρ c (Proc.devRef .tc main_v23) :=
  (W5_arr m ρ c 2).trans (((dat1 (V4 m ρ) c).arrAt_in 2 rfl _).trans (A_eq1 (V4 m ρ) c 2))
theorem W5_v7 : W5 m ρ c (Proc.devRef .tc main_v7) = W4 m ρ c (Proc.devRef .tc main_v7) := W5_of_ne m ρ c main_v7 (by decide)
theorem W5_v14 : W5 m ρ c (Proc.devRef .tc main_v14) = W4 m ρ c (Proc.devRef .tc main_v14) := W5_of_ne m ρ c main_v14 (by decide)
theorem W5_arg7 : W5 m ρ c (Proc.devRef .tc main_arg7) = W4 m ρ c (Proc.devRef .tc main_arg7) := W5_of_ne m ρ c main_arg7 (by decide)
theorem W5_arg8 : W5 m ρ c (Proc.devRef .tc main_arg8) = W4 m ρ c (Proc.devRef .tc main_arg8) := W5_of_ne m ρ c main_arg8 (by decide)
theorem W5_arg9 : W5 m ρ c (Proc.devRef .tc main_arg9) = W4 m ρ c (Proc.devRef .tc main_arg9) := W5_of_ne m ρ c main_arg9 (by decide)

/-! ## At the third launch's entry -/

theorem W6_v63 : W6 m ρ c (Proc.devRef .tc main_v63)
    = aggTerm (W5 m ρ c (Proc.devRef .tc main_v51)) (W5 m ρ c (Proc.devRef .tc main_v7)) (W5 m ρ c (Proc.devRef .tc main_v14)) := by
  dsimp only [W6, hostOps2]
  after_results_simp <;> rfl
theorem W6_v64 : W6 m ρ c (Proc.devRef .tc main_v64) = browTerm (W5 m ρ c (Proc.devRef .tc main_arg9)) := by
  dsimp only [W6, hostOps2]
  after_results_simp <;> rfl
theorem W6_v51 : W6 m ρ c (Proc.devRef .tc main_v51) = W5 m ρ c (Proc.devRef .tc main_v51) := by
  dsimp only [W6, hostOps2]
  after_results_simp <;> rfl
theorem W6_v23 : W6 m ρ c (Proc.devRef .tc main_v23) = W5 m ρ c (Proc.devRef .tc main_v23) := by
  dsimp only [W6, hostOps2]
  after_results_simp <;> rfl
theorem W6_arg7 : W6 m ρ c (Proc.devRef .tc main_arg7) = W5 m ρ c (Proc.devRef .tc main_arg7) := by
  dsimp only [W6, hostOps2]
  after_results_simp <;> rfl
theorem W6_arg8 : W6 m ρ c (Proc.devRef .tc main_arg8) = W5 m ρ c (Proc.devRef .tc main_arg8) := by
  dsimp only [W6, hostOps2]
  after_results_simp <;> rfl

/-! ## Across the third launch: the result -/

theorem W7_v65 : W7 m ρ c (Proc.devRef .tc main_v65) = (dat2 (V6 m ρ) c).arrAt 6 cfg2.N := W7_arr m ρ c 6

end Cert.KernelIdeal.KSide

end
-- ==== Proof.Spec.lean ====
/-
  The layer as mathematics, index by index, over the extended reals.

  A node `n` gathers the feature rows its incoming edges name, sums them, divides by the number of
  incoming edges (at least one), multiplies by the left weight, adds the node's own row times the right
  weight and the bias, and (in the first two layers) takes the positive part.  Everything here is stated
  over literal shapes and imports no program.
-/
import Idealize.ShloMosaic.PureOps.Ideal
import Idealize.ShloMosaic.Lib.ValueIdx
import Idealize.ShloMosaic.Lib.SortFacts

noncomputable section

namespace Cert.Spec

open Idealize.ShloMosaic Idealize.ShloMosaic.ValueIdx

abbrev NN : Nat := 100000
abbrev EE : Nat := 1600000
abbrev DD : Nat := 64

/-- The word 0.0 and the word 1.0, as the extended reals the programs read them at. -/
abbrev zeroE : EReal := Ideal.ofBits .f32 0x00000000#32
abbrev oneE : EReal := Ideal.ofBits .f32 0x3F800000#32

/-- A source word as a row of the feature table: a negative word wraps once by the table's height, and the
    result is clamped into the table (what `table[idx]` reads). -/
def rowOf (w : BitVec 32) : Fin 100000 :=
  ⟨min (Scalar.select (IntOp.cmpi .slt w 0#32) (IntOp.addi w 100000#32) w).toInt.toNat (100000 - 1), by omega⟩

/-- The edges that land on node `n`: those whose destination word, read signed, is `n`. -/
def landsOn (dst : (⟨1, ![EE]⟩ : Shape).Idx → BitVec 32) (n : Fin NN) : Finset (Fin EE) :=
  Finset.univ.filter fun e => (dst (Shape.Idx.ofFin e)).toInt = (n.val : Int)

/-- Column `k` of the sum of the source rows of the edges landing on `n`. -/
def aggAt (feat : (⟨2, ![NN, DD]⟩ : Shape).Idx → EReal) (src dst : (⟨1, ![EE]⟩ : Shape).Idx → BitVec 32)
    (n : Fin NN) (k : Fin DD) : EReal :=
  zeroE + ∑ e ∈ landsOn dst n, feat (ix2 (rowOf (src (Shape.Idx.ofFin e))) k)

/-- The number of edges landing on `n`, counted in ones. -/
def degAt (dst : (⟨1, ![EE]⟩ : Shape).Idx → BitVec 32) (n : Fin NN) : EReal :=
  zeroE + ∑ _e ∈ landsOn dst n, oneE

/-- The positive part, or nothing. -/
def act (relu : Bool) (v : EReal) : EReal := if relu then max v zeroE else v

/-- The dense tail of a layer on given arrays: `((agg · inv) Wl + feat Wr) + b`, then the activation. -/
def denseK (relu : Bool) (agg feat : (⟨2, ![NN, DD]⟩ : Shape).Idx → EReal) (inv : (⟨2, ![NN, 1]⟩ : Shape).Idx → EReal)
    (Wl Wr : (⟨2, ![DD, DD]⟩ : Shape).Idx → EReal) (brow : (⟨2, ![1, DD]⟩ : Shape).Idx → EReal) :
    (⟨2, ![NN, DD]⟩ : Shape).Idx → EReal :=
  fun i => act relu (((∑ k : Fin DD, (agg (ix2 (i 0) k) * inv (ix2 (i 0) (0 : Fin 1))) * Wl (ix2 k (i 1)))
      + ∑ k : Fin DD, feat (ix2 (i 0) k) * Wr (ix2 k (i 1))) + brow (ix2 (0 : Fin 1) (i 1)))

/-- The reference's order of the same: `((agg / deg) Wl + b) + feat Wr`, then the activation. -/
def denseR (relu : Bool) (agg feat : (⟨2, ![NN, DD]⟩ : Shape).Idx → EReal) (deg : (⟨1, ![NN]⟩ : Shape).Idx → EReal)
    (Wl Wr : (⟨2, ![DD, DD]⟩ : Shape).Idx → EReal) (b : (⟨1, ![DD]⟩ : Shape).Idx → EReal) :
    (⟨2, ![NN, DD]⟩ : Shape).Idx → EReal :=
  fun i => act relu (((∑ k : Fin DD, Ideal.div (agg (ix2 (i 0) k)) (max (deg (Shape.Idx.ofFin (i 0))) oneE) * Wl (ix2 k (i 1)))
      + b (Shape.Idx.ofFin (i 1))) + ∑ k : Fin DD, feat (ix2 (i 0) k) * Wr (ix2 k (i 1)))

end Cert.Spec

end
-- ==== Proof.KBlocks.lean ====
/-
  What each of the three launches leaves in its output array: the dense tail of a layer, as one function of
  the arrays the launch finds — the summed rows, the features, the reciprocal in-degrees, the two weights and
  the bias row.  A launch walks twenty blocks of five thousand rows; block `t` of the output is the body's
  value on block `t` of the row-indexed inputs and the whole of the weights and the bias, and the blocks
  tile the array.
-/
import proofs.«427492_j7026566496443_3_alg».proof.Proof.Gen.KernelIdeal.Frame
import proofs.«427492_j7026566496443_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The contraction's operand indices

The two products of the body contract the second axis of a five-thousand-by-sixty-four block with the first axis
of a sixty-four-by-sixty-four weight: at result index `(p, q)` and contraction coordinate `k` the operands are read
at `(p, k)` and `(k, q)`. -/

theorem lhs_axis0 (i : S5000x64.Idx) (r : dot_S5000x64_S64x64_S5000x64_1_0_0_1_n_n.contr.Idx) :
    (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (r : dot_S5000x64_S64x64_S5000x64_1_0_0_1_n_n.contr.Idx) :
    (dot_S5000x64_S64x64_S5000x64_1_0_0_1_n_n.lhsIdx i r 1).val = (r ⟨0, by decide⟩).val :=
  dot_S5000x64_S64x64_S5000x64_1_0_0_1_n_n.lhsIdx_val_of_single rfl i r
theorem rhs_axis0 (i : S5000x64.Idx) (r : dot_S5000x64_S64x64_S5000x64_1_0_0_1_n_n.contr.Idx) :
    (dot_S5000x64_S64x64_S5000x64_1_0_0_1_n_n.rhsIdx i r 0).val = (r ⟨0, by decide⟩).val :=
  dot_S5000x64_S64x64_S5000x64_1_0_0_1_n_n.rhsIdx_val_of_single rfl i r
theorem rhs_axis1 (i : S5000x64.Idx) (r : dot_S5000x64_S64x64_S5000x64_1_0_0_1_n_n.contr.Idx) :
    (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product into the zero accumulator, read at `(p, q)`: the sum over `k` of the left operand at `(p, k)` times the
    right at `(k, q)`. -/
theorem matmul_at {φ₁ φ₂ : FTy} (A : FVec Ideal S5000x64 φ₁) (B : FVec Ideal S64x64 φ₂) (p : Fin 5000) (q : Fin 64) :
    matmul dot_S5000x64_S64x64_S5000x64_1_0_0_1_n_n none A B (constant S5000x64 .f32 0x00000000#32) (ix2 p q)
      = ∑ k : Fin 64, A (ix2 p k) * B (ix2 k q) := by
  refine (Ideal.matmul_constant_zero_apply dot_S5000x64_S64x64_S5000x64_1_0_0_1_n_n none A B (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's value at an index -/

/-- The first launch's body at `(p, q)`: the scaled summed row times the left weight, plus the feature row times the
    right weight, plus the bias, then the positive part. -/
theorem pay0_at (v0 v7 : Vec Ideal S5000x64 .f32) (v2 : Vec Ideal S5000x1 .f32) (v9 v11 : Vec Ideal S64x64 .f32)
    (v16 : Vec Ideal S1x64 .f32) (p : Fin 5000) (q : Fin 64) :
    k0_pay1 (F := Ideal) v0 v2 v7 v9 v11 v16 (ix2 p q)
      = max (((∑ k : Fin 64, (v0 (ix2 p k) * v2 (ix2 p (0 : Fin 1))) * v9 (ix2 k q))
          + ∑ k : Fin 64, v7 (ix2 p k) * v11 (ix2 k q)) + v16 (ix2 (0 : Fin 1) q)) (Ideal.ofBits .f32 0x00000000#32) := by
  unfold k0_pay1
  simp only [shapeCast_self]
  show max ((matmul (F := Ideal) dot_S5000x64_S64x64_S5000x64_1_0_0_1_n_n none _ _ (constant S5000x64 .f32 0x00000000#32) (ix2 p q)
      + matmul (F := Ideal) dot_S5000x64_S64x64_S5000x64_1_0_0_1_n_n none _ _ (constant S5000x64 .f32 0x00000000#32) (ix2 p q))
      + broadcastTo S5000x64 v16 broadcasts_S1x64_S5000x64 (ix2 p q)) (Ideal.ofBits .f32 0x00000000#32) = _
  rw [matmul_at, matmul_at, broadcastTo_1b_ab_apply]
  simp only [truncf_apply, mulf_apply, broadcastTo_a1_ab_apply]

/-- The second launch's body at `(p, q)`: the same value as the first's. -/
theorem pay1_at (v0 v7 : Vec Ideal S5000x64 .f32) (v2 : Vec Ideal S5000x1 .f32) (v10 v12 : Vec Ideal S64x64 .f32)
    (v17 : Vec Ideal S1x64 .f32) (p : Fin 5000) (q : Fin 64) :
    k1_pay1 (F := Ideal) v0 v2 v7 v10 v12 v17 (ix2 p q)
      = max (((∑ k : Fin 64, (v0 (ix2 p k) * v2 (ix2 p (0 : Fin 1))) * v10 (ix2 k q))
          + ∑ k : Fin 64, v7 (ix2 p k) * v12 (ix2 k q)) + v17 (ix2 (0 : Fin 1) q)) (Ideal.ofBits .f32 0x00000000#32) := by
  unfold k1_pay1
  simp only [shapeCast_self]
  show max ((matmul (F := Ideal) dot_S5000x64_S64x64_S5000x64_1_0_0_1_n_n none _ _ (constant S5000x64 .f32 0x00000000#32) (ix2 p q)
      + matmul (F := Ideal) dot_S5000x64_S64x64_S5000x64_1_0_0_1_n_n none _ _ (constant S5000x64 .f32 0x00000000#32) (ix2 p q))
      + broadcastTo S5000x64 v17 broadcasts_S1x64_S5000x64 (ix2 p q)) (Ideal.ofBits .f32 0x00000000#32) = _
  rw [matmul_at, matmul_at, broadcastTo_1b_ab_apply]
  simp only [truncf_apply, mulf_apply, broadcastTo_a1_ab_apply]

/-- The third launch's body at `(p, q)`: the same sum, with no positive part taken. -/
theorem pay2_at (v0 v7 : Vec Ideal S5000x64 .f32) (v2 : Vec Ideal S5000x1 .f32) (v10 v12 : Vec Ideal S64x64 .f32)
    (v17 : Vec Ideal S1x64 .f32) (p : Fin 5000) (q : Fin 64) :
    k2_pay1 (F := Ideal) v0 v2 v7 v10 v12 v17 (ix2 p q)
      = ((∑ k : Fin 64, (v0 (ix2 p k) * v2 (ix2 p (0 : Fin 1))) * v10 (ix2 k q))
          + ∑ k : Fin 64, v7 (ix2 p k) * v12 (ix2 k q)) + v17 (ix2 (0 : Fin 1) q) := by
  unfold k2_pay1
  simp only [shapeCast_self]
  show (matmul (F := Ideal) dot_S5000x64_S64x64_S5000x64_1_0_0_1_n_n none _ _ (constant S5000x64 .f32 0x00000000#32) (ix2 p q)
      + matmul (F := Ideal) dot_S5000x64_S64x64_S5000x64_1_0_0_1_n_n none _ _ (constant S5000x64 .f32 0x00000000#32) (ix2 p q))
      + broadcastTo S5000x64 v17 broadcasts_S1x64_S5000x64 (ix2 p q) = _
  rw [matmul_at, matmul_at, broadcastTo_1b_ab_apply]
  simp only [truncf_apply, mulf_apply, broadcastTo_a1_ab_apply]

variable (V : (c : Dev nD) → (b : Ref sig .tc) → Buf (Elt Ideal) ((c : Thread nD τ).loc b))

/-- An array of extended reals, named at its literal shape. -/
abbrev atShape (s : Shape) (f : s.Idx → EReal) : s.Idx → EReal := f

/-- The offsets of a load or store of a whole block: zero on both axes. -/
theorem hz : (![0, 0] : Fin 2 → Nat) = fun _ => 0 := funext fun a => by fin_cases a <;> rfl

/-! ## The first launch: from blocks to the array -/

/-- The printed index maps of the first launch, decided over its twenty points: the row-indexed inputs move with the
    output's block row and sit in block column 0, the weights and the bias stay at block (0, 0), and the output's
    block row is below twenty. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 19 :=
  (by decide +kernel : ∀ t : Fin grid0.N, _)

/-- Every block row below twenty is some point's. -/
theorem idx_onto0 : ∀ q0 : Fin 20, ∃ t : Fin cfg0.N, win0_6.index t = ![q0.val, 0] :=
  (by decide +kernel : ∀ q0 : Fin 20, ∃ t : Fin grid0.N, win0_6.index t = ![q0.val, 0])

/-- Block `t` of the summed rows, at `(p, k)`: the array at row `5000 · (block row) + p`. -/
theorem blk0_0 (c : Dev nD) (t : Fin cfg0.N) (p : Fin 5000) (k : Fin 64) (r : Fin 100000)
    (hr : r.val = win0_6.index t (0 : Fin 2) * 5000 + p.val) :
    (iblk0 V c 0 t : Vec Ideal S5000x64 .f32) (ix2 p k) = (V c main_v35 : S100000x64.Idx → EReal) (ix2 r k) := by
  obtain ⟨e0, e1, -⟩ := idx_facts0 t
  unfold iblk0
  rw [View.read_apply]
  show (V c main_v35 : S100000x64.Idx → EReal) _ = _
  congr 1
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- Block `t` of the features, at `(p, k)`. -/
theorem blk0_1 (c : Dev nD) (t : Fin cfg0.N) (p : Fin 5000) (k : Fin 64) (r : Fin 100000)
    (hr : r.val = win0_6.index t (0 : Fin 2) * 5000 + p.val) :
    (iblk0 V c 1 t : Vec Ideal S5000x64 .f32) (ix2 p k) = (V c main_arg0 : S100000x64.Idx → EReal) (ix2 r k) := by
  obtain ⟨-, -, e0, e1, -⟩ := idx_facts0 t
  unfold iblk0
  rw [View.read_apply]
  show (V c main_arg0 : S100000x64.Idx → EReal) _ = _
  congr 1
  funext a; apply Fin.ext
  match a with
  | ⟨0, _⟩ => show win0_1.index t (0 : Fin 2) * 5000 + 1 * p.val = r.val; omega
  | ⟨1, _⟩ => show win0_1.index t (1 : Fin 2) * 64 + 1 * k.val = k.val; omega

/-- Block `t` of the reciprocal in-degree column, at `(p, 0)`. -/
theorem blk0_2 (c : Dev nD) (t : Fin cfg0.N) (p : Fin 5000) (r : Fin 100000)
    (hr : r.val = win0_6.index t (0 : Fin 2) * 5000 + p.val) :
    (iblk0 V c 2 t : Vec Ideal S5000x1 .f32) (ix2 p (0 : Fin 1)) = (V c main_v23 : S100000x1.Idx → EReal) (ix2 r (0 : Fin 1)) := by
  obtain ⟨-, -, -, -, e0, e1, -⟩ := idx_facts0 t
  unfold iblk0
  rw [View.read_apply]
  show (V c main_v23 : S100000x1.Idx → EReal) _ = _
  congr 1
  funext a; apply Fin.ext
  match a with
  | ⟨0, _⟩ => show win0_2.index t (0 : Fin 2) * 5000 + 1 * p.val = r.val; omega
  | ⟨1, _⟩ => show win0_2.index t (1 : Fin 2) * 1 + 1 * 0 = 0; omega

/-- The left weight's one block is the weight. -/
theorem blk0_3 (c : Dev nD) (t : Fin cfg0.N) (k q : Fin 64) :
    (iblk0 V c 3 t : Vec Ideal S64x64 .f32) (ix2 k q) = (V c main_arg1 : S64x64.Idx → EReal) (ix2 k q) := by
  obtain ⟨-, -, -, -, -, -, e0, e1, -⟩ := idx_facts0 t
  unfold iblk0
  rw [View.read_apply]
  show (V c main_arg1 : S64x64.Idx → EReal) _ = _
  congr 1
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- The right weight's one block is the weight. -/
theorem blk0_4 (c : Dev nD) (t : Fin cfg0.N) (k q : Fin 64) :
    (iblk0 V c 4 t : Vec Ideal S64x64 .f32) (ix2 k q) = (V c main_arg2 : S64x64.Idx → EReal) (ix2 k q) := by
  obtain ⟨-, -, -, -, -, -, -, -, e0, e1, -⟩ := idx_facts0 t
  unfold iblk0
  rw [View.read_apply]
  show (V c main_arg2 : S64x64.Idx → EReal) _ = _
  congr 1
  funext a; apply Fin.ext
  match a with
  | ⟨0, _⟩ => show win0_4.index t (0 : Fin 2) * 64 + 1 * k.val = k.val; omega
  | ⟨1, _⟩ => show win0_4.index t (1 : Fin 2) * 64 + 1 * q.val = q.val; omega

/-- The bias row's one block is the row. -/
theorem blk0_5 (c : Dev nD) (t : Fin cfg0.N) (q : Fin 64) :
    (iblk0 V c 5 t : Vec Ideal S1x64 .f32) (ix2 (0 : Fin 1) q) = (V c main_v36 : S1x64.Idx → EReal) (ix2 (0 : Fin 1) q) := by
  obtain ⟨-, -, -, -, -, -, -, -, -, -, e0, e1, -⟩ := idx_facts0 t
  unfold iblk0
  rw [View.read_apply]
  show (V c main_v36 : S1x64.Idx → EReal) _ = _
  congr 1
  funext a; apply Fin.ext
  match a with
  | ⟨0, _⟩ => show win0_5.index t (0 : Fin 2) * 1 + 1 * 0 = 0; omega
  | ⟨1, _⟩ => show win0_5.index t (1 : Fin 2) * 64 + 1 * q.val = q.val; omega

/-- The body on the blocks at point `t`, at `(p, q)`: the dense tail of the whole arrays at the array index `i` whose
    row is `5000 · (block row) + p` and whose column is `q`. -/
theorem point0 (c : Dev nD) (t : Fin cfg0.N) (p : Fin 5000) (q : Fin 64) (i : S100000x64.Idx)
    (h0 : (i 0).val = win0_6.index t (0 : Fin 2) * 5000 + p.val) (h1 : (i 1).val = q.val) :
    k0_pay1 (F := Ideal) (iblk0 V c 0 t) (iblk0 V c 2 t) (iblk0 V c 1 t) (iblk0 V c 3 t) (iblk0 V c 4 t) (iblk0 V c 5 t) (ix2 p q)
      = Cert.Spec.denseK true (V c main_v35) (V c main_arg0) (V c main_v23) (V c main_arg1) (V c main_arg2) (V c main_v36) i := by
  obtain ⟨r, q', rfl⟩ : ∃ (r : Fin 100000) (q' : Fin 64), i = ix2 r q' := ⟨i 0, i 1, eq_ix2 i⟩
  obtain rfl : q' = q := Fin.ext h1
  have hr : r.val = win0_6.index t (0 : Fin 2) * 5000 + p.val := h0
  refine (pay0_at _ _ _ _ _ _ p q').trans ?_
  show _ = max (((∑ k : Fin 64, (atShape S100000x64 (V c main_v35) (ix2 r k) * atShape S100000x1 (V c main_v23) (ix2 r (0 : Fin 1))) * atShape S64x64 (V c main_arg1) (ix2 k q'))
      + ∑ k : Fin 64, atShape S100000x64 (V c main_arg0) (ix2 r k) * atShape S64x64 (V c main_arg2) (ix2 k q')) + atShape S1x64 (V c main_v36) (ix2 (0 : Fin 1) q')) (Ideal.ofBits .f32 0x00000000#32)
  refine congrArg₂ max (congrArg₂ (· + ·) (congrArg₂ (· + ·) (Finset.sum_congr rfl fun k _ => ?_) (Finset.sum_congr rfl fun k _ => ?_)) ?_) rfl
  · exact congrArg₂ (· * ·) (congrArg₂ (· * ·) (blk0_0 V c t p k r hr) (blk0_2 V c t p r hr)) (blk0_3 V c t k q')
  · exact congrArg₂ (· * ·) (blk0_1 V c t p k r hr) (blk0_4 V c t k q')
  · exact blk0_5 V c t q'

/-- What point `t` writes back is block `t` of the dense tail of the arrays as the launch finds them. -/
theorem flushed0_eq (c : Dev nD) (t : Fin cfg0.N) :
    (dat0 (F := Ideal) V c).flushed 6 t
      = ((cfg0.win 6).blk t).view.read (Elt Ideal) (Cert.Spec.denseK true (V c main_v35) (V c main_arg0) (V c main_v23) (V c main_arg1) (V c main_arg2) (V c main_v36)) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz,
    View.ld_unit_zero (S := S1x64) hz]
  obtain ⟨-, -, -, -, -, -, -, -, -, -, -, -, e1, -⟩ := idx_facts0 t
  refine funext fun (j : S5000x64.Idx) => ?_
  show k0_pay1 (F := Ideal) (iblk0 V c 0 t) (iblk0 V c 2 t) (iblk0 V c 1 t) (iblk0 V c 3 t) (iblk0 V c 4 t) (iblk0 V c 5 t) j
    = Cert.Spec.denseK true (V c main_v35) (V c main_arg0) (V c main_v23) (V c main_arg1) (V c main_arg2) (V c main_v36) (((cfg0.win 6).blk t).view.emb j)
  refine (congrArg (k0_pay1 (F := Ideal) (iblk0 V c 0 t) (iblk0 V c 2 t) (iblk0 V c 1 t) (iblk0 V c 3 t) (iblk0 V c 4 t) (iblk0 V c 5 t)) (eq_ix2 j)).trans ?_
  refine point0 V c t (j 0) (j 1) _ ?_ ?_
  · show win0_6.index t (0 : Fin 2) * 5000 + 1 * (j 0).val = win0_6.index t (0 : Fin 2) * 5000 + (j 0).val
    omega
  · show win0_6.index t (1 : Fin 2) * 64 + 1 * (j 1).val = (j 1).val
    omega

/-- An index of the output array is in point `t`'s block iff each coordinate is in the block's range on its axis. -/
theorem mem_blk0 (t : Fin cfg0.N) (i : S100000x64.Idx) :
    i ∈ ((cfg0.win 6).blk t).view.set
      ↔ ∀ a : Fin 2, win0_6.index t a * S5000x64.size a ≤ (i a).val ∧ (i a).val < win0_6.index t a * S5000x64.size a + S5000x64.size a := by
  show i ∈ ((View.whole main_v37).slice (win0_6.rect t)).set ↔ _
  rw [View.set_slice_whole, Rect.mem_set_unit]
  exact Iff.rfl

/-- Every index of the output array is in some point's block: row `r` is in block `r / 5000`. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- The first launch's output array. -/
theorem arr0 (c : Dev nD) :
    (dat0 (F := Ideal) V c).arrAt 6 cfg0.N
      = Cert.Spec.denseK true (V c main_v35) (V c main_arg0) (V c main_v23) (V c main_arg1) (V c main_arg2) (V c main_v36) :=
  (dat0 (F := Ideal) V c).arrAt_eq_of_cover 6 _ (fun t _ => flushed0_eq V c t) cover0

/-! ## The second launch: from blocks to the array -/

/-- The printed index maps of the second launch, decided over its twenty points: the row-indexed inputs move with the
    output's block row and sit in block column 0, the weights and the bias stay at block (0, 0), and the output's
    block row is below twenty. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 19 :=
  (by decide +kernel : ∀ t : Fin grid1.N, _)

/-- Every block row below twenty is some point's. -/
theorem idx_onto1 : ∀ q0 : Fin 20, ∃ t : Fin cfg1.N, win1_6.index t = ![q0.val, 0] :=
  (by decide +kernel : ∀ q0 : Fin 20, ∃ t : Fin grid1.N, win1_6.index t = ![q0.val, 0])

/-- Block `t` of the summed rows, at `(p, k)`: the array at row `5000 · (block row) + p`. -/
theorem blk1_0 (c : Dev nD) (t : Fin cfg1.N) (p : Fin 5000) (k : Fin 64) (r : Fin 100000)
    (hr : r.val = win1_6.index t (0 : Fin 2) * 5000 + p.val) :
    (iblk1 V c 0 t : Vec Ideal S5000x64 .f32) (ix2 p k) = (V c main_v49 : S100000x64.Idx → EReal) (ix2 r k) := by
  obtain ⟨e0, e1, -⟩ := idx_facts1 t
  unfold iblk1
  rw [View.read_apply]
  show (V c main_v49 : S100000x64.Idx → EReal) _ = _
  congr 1
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- Block `t` of the features, at `(p, k)`. -/
theorem blk1_1 (c : Dev nD) (t : Fin cfg1.N) (p : Fin 5000) (k : Fin 64) (r : Fin 100000)
    (hr : r.val = win1_6.index t (0 : Fin 2) * 5000 + p.val) :
    (iblk1 V c 1 t : Vec Ideal S5000x64 .f32) (ix2 p k) = (V c main_v37 : S100000x64.Idx → EReal) (ix2 r k) := by
  obtain ⟨-, -, e0, e1, -⟩ := idx_facts1 t
  unfold iblk1
  rw [View.read_apply]
  show (V c main_v37 : S100000x64.Idx → EReal) _ = _
  congr 1
  funext a; apply Fin.ext
  match a with
  | ⟨0, _⟩ => show win1_1.index t (0 : Fin 2) * 5000 + 1 * p.val = r.val; omega
  | ⟨1, _⟩ => show win1_1.index t (1 : Fin 2) * 64 + 1 * k.val = k.val; omega

/-- Block `t` of the reciprocal in-degree column, at `(p, 0)`. -/
theorem blk1_2 (c : Dev nD) (t : Fin cfg1.N) (p : Fin 5000) (r : Fin 100000)
    (hr : r.val = win1_6.index t (0 : Fin 2) * 5000 + p.val) :
    (iblk1 V c 2 t : Vec Ideal S5000x1 .f32) (ix2 p (0 : Fin 1)) = (V c main_v23 : S100000x1.Idx → EReal) (ix2 r (0 : Fin 1)) := by
  obtain ⟨-, -, -, -, e0, e1, -⟩ := idx_facts1 t
  unfold iblk1
  rw [View.read_apply]
  show (V c main_v23 : S100000x1.Idx → EReal) _ = _
  congr 1
  funext a; apply Fin.ext
  match a with
  | ⟨0, _⟩ => show win1_2.index t (0 : Fin 2) * 5000 + 1 * p.val = r.val; omega
  | ⟨1, _⟩ => show win1_2.index t (1 : Fin 2) * 1 + 1 * 0 = 0; omega

/-- The left weight's one block is the weight. -/
theorem blk1_3 (c : Dev nD) (t : Fin cfg1.N) (k q : Fin 64) :
    (iblk1 V c 3 t : Vec Ideal S64x64 .f32) (ix2 k q) = (V c main_arg4 : S64x64.Idx → EReal) (ix2 k q) := by
  obtain ⟨-, -, -, -, -, -, e0, e1, -⟩ := idx_facts1 t
  unfold iblk1
  rw [View.read_apply]
  show (V c main_arg4 : S64x64.Idx → EReal) _ = _
  congr 1
  funext a; apply Fin.ext
  match a with
  | ⟨0, _⟩ => show win1_3.index t (0 : Fin 2) * 64 + 1 * k.val = k.val; omega
  | ⟨1, _⟩ => show win1_3.index t (1 : Fin 2) * 64 + 1 * q.val = q.val; omega

/-- The right weight's one block is the weight. -/
theorem blk1_4 (c : Dev nD) (t : Fin cfg1.N) (k q : Fin 64) :
    (iblk1 V c 4 t : Vec Ideal S64x64 .f32) (ix2 k q) = (V c main_arg5 : S64x64.Idx → EReal) (ix2 k q) := by
  obtain ⟨-, -, -, -, -, -, -, -, e0, e1, -⟩ := idx_facts1 t
  unfold iblk1
  rw [View.read_apply]
  show (V c main_arg5 : S64x64.Idx → EReal) _ = _
  congr 1
  funext a; apply Fin.ext
  match a with
  | ⟨0, _⟩ => show win1_4.index t (0 : Fin 2) * 64 + 1 * k.val = k.val; omega
  | ⟨1, _⟩ => show win1_4.index t (1 : Fin 2) * 64 + 1 * q.val = q.val; omega

/-- The bias row's one block is the row. -/
theorem blk1_5 (c : Dev nD) (t : Fin cfg1.N) (q : Fin 64) :
    (iblk1 V c 5 t : Vec Ideal S1x64 .f32) (ix2 (0 : Fin 1) q) = (V c main_v50 : S1x64.Idx → EReal) (ix2 (0 : Fin 1) q) := by
  obtain ⟨-, -, -, -, -, -, -, -, -, -, e0, e1, -⟩ := idx_facts1 t
  unfold iblk1
  rw [View.read_apply]
  show (V c main_v50 : S1x64.Idx → EReal) _ = _
  congr 1
  funext a; apply Fin.ext
  match a with
  | ⟨0, _⟩ => show win1_5.index t (0 : Fin 2) * 1 + 1 * 0 = 0; omega
  | ⟨1, _⟩ => show win1_5.index t (1 : Fin 2) * 64 + 1 * q.val = q.val; omega

/-- The body on the blocks at point `t`, at `(p, q)`: the dense tail of the whole arrays at the array index `i` whose
    row is `5000 · (block row) + p` and whose column is `q`. -/
theorem point1 (c : Dev nD) (t : Fin cfg1.N) (p : Fin 5000) (q : Fin 64) (i : S100000x64.Idx)
    (h0 : (i 0).val = win1_6.index t (0 : Fin 2) * 5000 + p.val) (h1 : (i 1).val = q.val) :
    k1_pay1 (F := Ideal) (iblk1 V c 0 t) (iblk1 V c 2 t) (iblk1 V c 1 t) (iblk1 V c 3 t) (iblk1 V c 4 t) (iblk1 V c 5 t) (ix2 p q)
      = Cert.Spec.denseK true (V c main_v49) (V c main_v37) (V c main_v23) (V c main_arg4) (V c main_arg5) (V c main_v50) i := by
  obtain ⟨r, q', rfl⟩ : ∃ (r : Fin 100000) (q' : Fin 64), i = ix2 r q' := ⟨i 0, i 1, eq_ix2 i⟩
  obtain rfl : q' = q := Fin.ext h1
  have hr : r.val = win1_6.index t (0 : Fin 2) * 5000 + p.val := h0
  refine (pay1_at _ _ _ _ _ _ p q').trans ?_
  show _ = max (((∑ k : Fin 64, (atShape S100000x64 (V c main_v49) (ix2 r k) * atShape S100000x1 (V c main_v23) (ix2 r (0 : Fin 1))) * atShape S64x64 (V c main_arg4) (ix2 k q'))
      + ∑ k : Fin 64, atShape S100000x64 (V c main_v37) (ix2 r k) * atShape S64x64 (V c main_arg5) (ix2 k q')) + atShape S1x64 (V c main_v50) (ix2 (0 : Fin 1) q')) (Ideal.ofBits .f32 0x00000000#32)
  refine congrArg₂ max (congrArg₂ (· + ·) (congrArg₂ (· + ·) (Finset.sum_congr rfl fun k _ => ?_) (Finset.sum_congr rfl fun k _ => ?_)) ?_) rfl
  · exact congrArg₂ (· * ·) (congrArg₂ (· * ·) (blk1_0 V c t p k r hr) (blk1_2 V c t p r hr)) (blk1_3 V c t k q')
  · exact congrArg₂ (· * ·) (blk1_1 V c t p k r hr) (blk1_4 V c t k q')
  · exact blk1_5 V c t q'

/-- What point `t` writes back is block `t` of the dense tail of the arrays as the launch finds them. -/
theorem flushed1_eq (c : Dev nD) (t : Fin cfg1.N) :
    (dat1 (F := Ideal) V c).flushed 6 t
      = ((cfg1.win 6).blk t).view.read (Elt Ideal) (Cert.Spec.denseK true (V c main_v49) (V c main_v37) (V c main_v23) (V c main_arg4) (V c main_arg5) (V c main_v50)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S1x64) hz]
  obtain ⟨-, -, -, -, -, -, -, -, -, -, -, -, e1, -⟩ := idx_facts1 t
  refine funext fun (j : S5000x64.Idx) => ?_
  show k1_pay1 (F := Ideal) (iblk1 V c 0 t) (iblk1 V c 2 t) (iblk1 V c 1 t) (iblk1 V c 3 t) (iblk1 V c 4 t) (iblk1 V c 5 t) j
    = Cert.Spec.denseK true (V c main_v49) (V c main_v37) (V c main_v23) (V c main_arg4) (V c main_arg5) (V c main_v50) (((cfg1.win 6).blk t).view.emb j)
  refine (congrArg (k1_pay1 (F := Ideal) (iblk1 V c 0 t) (iblk1 V c 2 t) (iblk1 V c 1 t) (iblk1 V c 3 t) (iblk1 V c 4 t) (iblk1 V c 5 t)) (eq_ix2 j)).trans ?_
  refine point1 V c t (j 0) (j 1) _ ?_ ?_
  · show win1_6.index t (0 : Fin 2) * 5000 + 1 * (j 0).val = win1_6.index t (0 : Fin 2) * 5000 + (j 0).val
    omega
  · show win1_6.index t (1 : Fin 2) * 64 + 1 * (j 1).val = (j 1).val
    omega

/-- An index of the output array is in point `t`'s block iff each coordinate is in the block's range on its axis. -/
theorem mem_blk1 (t : Fin cfg1.N) (i : S100000x64.Idx) :
    i ∈ ((cfg1.win 6).blk t).view.set
      ↔ ∀ a : Fin 2, win1_6.index t a * S5000x64.size a ≤ (i a).val ∧ (i a).val < win1_6.index t a * S5000x64.size a + S5000x64.size a := by
  show i ∈ ((View.whole main_v51).slice (win1_6.rect t)).set ↔ _
  rw [View.set_slice_whole, Rect.mem_set_unit]
  exact Iff.rfl

/-- Every index of the output array is in some point's block: row `r` is in block `r / 5000`. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- The second launch's output array. -/
theorem arr1 (c : Dev nD) :
    (dat1 (F := Ideal) V c).arrAt 6 cfg1.N
      = Cert.Spec.denseK true (V c main_v49) (V c main_v37) (V c main_v23) (V c main_arg4) (V c main_arg5) (V c main_v50) :=
  (dat1 (F := Ideal) V c).arrAt_eq_of_cover 6 _ (fun t _ => flushed1_eq V c t) cover1

/-! ## The third launch: from blocks to the array -/

/-- The printed index maps of the third launch, decided over its twenty points: the row-indexed inputs move with the
    output's block row and sit in block column 0, the weights and the bias stay at block (0, 0), and the output's
    block row is below twenty. -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 19 :=
  (by decide +kernel : ∀ t : Fin grid2.N, _)

/-- Every block row below twenty is some point's. -/
theorem idx_onto2 : ∀ q0 : Fin 20, ∃ t : Fin cfg2.N, win2_6.index t = ![q0.val, 0] :=
  (by decide +kernel : ∀ q0 : Fin 20, ∃ t : Fin grid2.N, win2_6.index t = ![q0.val, 0])

/-- Block `t` of the summed rows, at `(p, k)`: the array at row `5000 · (block row) + p`. -/
theorem blk2_0 (c : Dev nD) (t : Fin cfg2.N) (p : Fin 5000) (k : Fin 64) (r : Fin 100000)
    (hr : r.val = win2_6.index t (0 : Fin 2) * 5000 + p.val) :
    (iblk2 V c 0 t : Vec Ideal S5000x64 .f32) (ix2 p k) = (V c main_v63 : S100000x64.Idx → EReal) (ix2 r k) := by
  obtain ⟨e0, e1, -⟩ := idx_facts2 t
  unfold iblk2
  rw [View.read_apply]
  show (V c main_v63 : S100000x64.Idx → EReal) _ = _
  congr 1
  funext a; apply Fin.ext
  match a with
  | ⟨0, _⟩ => show win2_0.index t (0 : Fin 2) * 5000 + 1 * p.val = r.val; omega
  | ⟨1, _⟩ => show win2_0.index t (1 : Fin 2) * 64 + 1 * k.val = k.val; omega

/-- Block `t` of the features, at `(p, k)`. -/
theorem blk2_1 (c : Dev nD) (t : Fin cfg2.N) (p : Fin 5000) (k : Fin 64) (r : Fin 100000)
    (hr : r.val = win2_6.index t (0 : Fin 2) * 5000 + p.val) :
    (iblk2 V c 1 t : Vec Ideal S5000x64 .f32) (ix2 p k) = (V c main_v51 : S100000x64.Idx → EReal) (ix2 r k) := by
  obtain ⟨-, -, e0, e1, -⟩ := idx_facts2 t
  unfold iblk2
  rw [View.read_apply]
  show (V c main_v51 : S100000x64.Idx → EReal) _ = _
  congr 1
  funext a; apply Fin.ext
  match a with
  | ⟨0, _⟩ => show win2_1.index t (0 : Fin 2) * 5000 + 1 * p.val = r.val; omega
  | ⟨1, _⟩ => show win2_1.index t (1 : Fin 2) * 64 + 1 * k.val = k.val; omega

/-- Block `t` of the reciprocal in-degree column, at `(p, 0)`. -/
theorem blk2_2 (c : Dev nD) (t : Fin cfg2.N) (p : Fin 5000) (r : Fin 100000)
    (hr : r.val = win2_6.index t (0 : Fin 2) * 5000 + p.val) :
    (iblk2 V c 2 t : Vec Ideal S5000x1 .f32) (ix2 p (0 : Fin 1)) = (V c main_v23 : S100000x1.Idx → EReal) (ix2 r (0 : Fin 1)) := by
  obtain ⟨-, -, -, -, e0, e1, -⟩ := idx_facts2 t
  unfold iblk2
  rw [View.read_apply]
  show (V c main_v23 : S100000x1.Idx → EReal) _ = _
  congr 1
  funext a; apply Fin.ext
  match a with
  | ⟨0, _⟩ => show win2_2.index t (0 : Fin 2) * 5000 + 1 * p.val = r.val; omega
  | ⟨1, _⟩ => show win2_2.index t (1 : Fin 2) * 1 + 1 * 0 = 0; omega

/-- The left weight's one block is the weight. -/
theorem blk2_3 (c : Dev nD) (t : Fin cfg2.N) (k q : Fin 64) :
    (iblk2 V c 3 t : Vec Ideal S64x64 .f32) (ix2 k q) = (V c main_arg7 : S64x64.Idx → EReal) (ix2 k q) := by
  obtain ⟨-, -, -, -, -, -, e0, e1, -⟩ := idx_facts2 t
  unfold iblk2
  rw [View.read_apply]
  show (V c main_arg7 : S64x64.Idx → EReal) _ = _
  congr 1
  funext a; apply Fin.ext
  match a with
  | ⟨0, _⟩ => show win2_3.index t (0 : Fin 2) * 64 + 1 * k.val = k.val; omega
  | ⟨1, _⟩ => show win2_3.index t (1 : Fin 2) * 64 + 1 * q.val = q.val; omega

/-- The right weight's one block is the weight. -/
theorem blk2_4 (c : Dev nD) (t : Fin cfg2.N) (k q : Fin 64) :
    (iblk2 V c 4 t : Vec Ideal S64x64 .f32) (ix2 k q) = (V c main_arg8 : S64x64.Idx → EReal) (ix2 k q) := by
  obtain ⟨-, -, -, -, -, -, -, -, e0, e1, -⟩ := idx_facts2 t
  unfold iblk2
  rw [View.read_apply]
  show (V c main_arg8 : S64x64.Idx → EReal) _ = _
  congr 1
  funext a; apply Fin.ext
  match a with
  | ⟨0, _⟩ => show win2_4.index t (0 : Fin 2) * 64 + 1 * k.val = k.val; omega
  | ⟨1, _⟩ => show win2_4.index t (1 : Fin 2) * 64 + 1 * q.val = q.val; omega

/-- The bias row's one block is the row. -/
theorem blk2_5 (c : Dev nD) (t : Fin cfg2.N) (q : Fin 64) :
    (iblk2 V c 5 t : Vec Ideal S1x64 .f32) (ix2 (0 : Fin 1) q) = (V c main_v64 : S1x64.Idx → EReal) (ix2 (0 : Fin 1) q) := by
  obtain ⟨-, -, -, -, -, -, -, -, -, -, e0, e1, -⟩ := idx_facts2 t
  unfold iblk2
  rw [View.read_apply]
  show (V c main_v64 : S1x64.Idx → EReal) _ = _
  congr 1
  funext a; apply Fin.ext
  match a with
  | ⟨0, _⟩ => show win2_5.index t (0 : Fin 2) * 1 + 1 * 0 = 0; omega
  | ⟨1, _⟩ => show win2_5.index t (1 : Fin 2) * 64 + 1 * q.val = q.val; omega

/-- The body on the blocks at point `t`, at `(p, q)`: the dense tail of the whole arrays at the array index `i` whose
    row is `5000 · (block row) + p` and whose column is `q`. -/
theorem point2 (c : Dev nD) (t : Fin cfg2.N) (p : Fin 5000) (q : Fin 64) (i : S100000x64.Idx)
    (h0 : (i 0).val = win2_6.index t (0 : Fin 2) * 5000 + p.val) (h1 : (i 1).val = q.val) :
    k2_pay1 (F := Ideal) (iblk2 V c 0 t) (iblk2 V c 2 t) (iblk2 V c 1 t) (iblk2 V c 3 t) (iblk2 V c 4 t) (iblk2 V c 5 t) (ix2 p q)
      = Cert.Spec.denseK false (V c main_v63) (V c main_v51) (V c main_v23) (V c main_arg7) (V c main_arg8) (V c main_v64) i := by
  obtain ⟨r, q', rfl⟩ : ∃ (r : Fin 100000) (q' : Fin 64), i = ix2 r q' := ⟨i 0, i 1, eq_ix2 i⟩
  obtain rfl : q' = q := Fin.ext h1
  have hr : r.val = win2_6.index t (0 : Fin 2) * 5000 + p.val := h0
  refine (pay2_at _ _ _ _ _ _ p q').trans ?_
  show _ = ((∑ k : Fin 64, (atShape S100000x64 (V c main_v63) (ix2 r k) * atShape S100000x1 (V c main_v23) (ix2 r (0 : Fin 1))) * atShape S64x64 (V c main_arg7) (ix2 k q'))
      + ∑ k : Fin 64, atShape S100000x64 (V c main_v51) (ix2 r k) * atShape S64x64 (V c main_arg8) (ix2 k q')) + atShape S1x64 (V c main_v64) (ix2 (0 : Fin 1) q')
  refine congrArg₂ (· + ·) (congrArg₂ (· + ·) (Finset.sum_congr rfl fun k _ => ?_) (Finset.sum_congr rfl fun k _ => ?_)) ?_
  · exact congrArg₂ (· * ·) (congrArg₂ (· * ·) (blk2_0 V c t p k r hr) (blk2_2 V c t p r hr)) (blk2_3 V c t k q')
  · exact congrArg₂ (· * ·) (blk2_1 V c t p k r hr) (blk2_4 V c t k q')
  · exact blk2_5 V c t q'

/-- What point `t` writes back is block `t` of the dense tail of the arrays as the launch finds them. -/
theorem flushed2_eq (c : Dev nD) (t : Fin cfg2.N) :
    (dat2 (F := Ideal) V c).flushed 6 t
      = ((cfg2.win 6).blk t).view.read (Elt Ideal) (Cert.Spec.denseK false (V c main_v63) (V c main_v51) (V c main_v23) (V c main_arg7) (V c main_arg8) (V c main_v64)) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz, View.ld_unit_zero (S := S64x64) hz,
    View.ld_unit_zero (S := S1x64) hz]
  obtain ⟨-, -, -, -, -, -, -, -, -, -, -, -, e1, -⟩ := idx_facts2 t
  refine funext fun (j : S5000x64.Idx) => ?_
  show k2_pay1 (F := Ideal) (iblk2 V c 0 t) (iblk2 V c 2 t) (iblk2 V c 1 t) (iblk2 V c 3 t) (iblk2 V c 4 t) (iblk2 V c 5 t) j
    = Cert.Spec.denseK false (V c main_v63) (V c main_v51) (V c main_v23) (V c main_arg7) (V c main_arg8) (V c main_v64) (((cfg2.win 6).blk t).view.emb j)
  refine (congrArg (k2_pay1 (F := Ideal) (iblk2 V c 0 t) (iblk2 V c 2 t) (iblk2 V c 1 t) (iblk2 V c 3 t) (iblk2 V c 4 t) (iblk2 V c 5 t)) (eq_ix2 j)).trans ?_
  refine point2 V c t (j 0) (j 1) _ ?_ ?_
  · show win2_6.index t (0 : Fin 2) * 5000 + 1 * (j 0).val = win2_6.index t (0 : Fin 2) * 5000 + (j 0).val
    omega
  · show win2_6.index t (1 : Fin 2) * 64 + 1 * (j 1).val = (j 1).val
    omega

/-- An index of the output array is in point `t`'s block iff each coordinate is in the block's range on its axis. -/
theorem mem_blk2 (t : Fin cfg2.N) (i : S100000x64.Idx) :
    i ∈ ((cfg2.win 6).blk t).view.set
      ↔ ∀ a : Fin 2, win2_6.index t a * S5000x64.size a ≤ (i a).val ∧ (i a).val < win2_6.index t a * S5000x64.size a + S5000x64.size a := by
  show i ∈ ((View.whole main_v65).slice (win2_6.rect t)).set ↔ _
  rw [View.set_slice_whole, Rect.mem_set_unit]
  exact Iff.rfl

/-- Every index of the output array is in some point's block: row `r` is in block `r / 5000`. -/
theorem cover2 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := idx_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

/-- The third launch's output array (no activation). -/
theorem arr2 (c : Dev nD) :
    (dat2 (F := Ideal) V c).arrAt 6 cfg2.N
      = Cert.Spec.denseK false (V c main_v63) (V c main_v51) (V c main_v23) (V c main_arg7) (V c main_arg8) (V c main_v64) :=
  (dat2 (F := Ideal) V c).arrAt_eq_of_cover 6 _ (fun t _ => flushed2_eq V c t) cover2

end Cert.KernelIdeal.KBlocks

end
-- ==== Proof.EdgeSum.lean ====
/-
  A row scatter-add, a vector scatter-add and a row gather, each read at one index.

  The scatter of rows adds update row `e` into the operand row its start word names (read signed, not
  clamped; a row outside the operand is dropped); the gather of rows reads the operand row its start word
  names (read signed, clamped into the operand).  Stated for any dimension record with the printed
  dimension numbers, so that both programs' records meet them by `rfl`.
-/
import Idealize.ShloMosaic.PureOps.Ideal
import Idealize.ShloMosaic.Lib.ValueIdx
import Idealize.ShloMosaic.Lib.StableHlo.Predicate

noncomputable section

namespace Cert.EdgeSum

open Idealize.ShloMosaic Idealize.ShloMosaic.ValueIdx Idealize.ShloMosaic.StableHlo.Predicate

section Rows
variable {N E C w : Nat} (d : ScatterDims ⟨2, ![N, C]⟩ ⟨2, ![E, 1]⟩ ⟨2, ![E, C]⟩)

/-- On the row axis the window starts at row `j 0`'s start word, read signed. -/
theorem rows_start0
    (hw : d.updateWindowDims = [1]) (hi : d.insertedWindowDims = [0]) (hs : d.scatterDimsToOperandDims = [0])
    (hv : d.indexVectorDim = 1) (idx : IVec ⟨2, ![E, 1]⟩ w) (j : (⟨2, ![E, C]⟩ : Shape).Idx) :
    d.start j idx 0 = (idx (ixP (j 0))).toInt := by
  obtain ⟨uw, iw, sd, iv, wf⟩ := d
  dsimp only at hw hi hs hv
  subst hw hi hs hv
  unfold ScatterDims.start
  rw [dif_pos (List.mem_singleton.mpr rfl)]
  congr 2
  funext b
  match b with
  | ⟨0, _⟩ => rfl
  | ⟨1, _⟩ => rfl

/-- The column axis is not start-indexed. -/
theorem rows_start1
    (hs : d.scatterDimsToOperandDims = [0]) (idx : IVec ⟨2, ![E, 1]⟩ w) (j : (⟨2, ![E, C]⟩ : Shape).Idx) :
    d.start j idx 1 = 0 := by
  unfold ScatterDims.start
  rw [dif_neg (by rw [hs]; simp)]

/-- The row axis is inserted: no window coordinate. -/
theorem rows_window0
    (hi : d.insertedWindowDims = [0]) (j : (⟨2, ![E, C]⟩ : Shape).Idx) :
    d.window j 0 = 0 := by
  unfold ScatterDims.window
  rw [dif_neg (by simp [ScatterDims.sKept, Shape.kept, hi])]

/-- The column axis carries the update's column. -/
theorem rows_window1
    (hw : d.updateWindowDims = [1]) (hi : d.insertedWindowDims = [0]) (j : (⟨2, ![E, C]⟩ : Shape).Idx) :
    d.window j 1 = (j 1).val := by
  obtain ⟨uw, iw, sd, iv, wf⟩ := d
  dsimp only at hw hi
  subst hw hi
  unfold ScatterDims.window
  rw [dif_pos (by simp [ScatterDims.sKept, Shape.kept])]
  rfl

/-- Update `j` lands on `(n, k)` exactly when its row's start word reads `n` and its column is `k`. -/
theorem rows_resultIdx_iff
    (hw : d.updateWindowDims = [1]) (hi : d.insertedWindowDims = [0]) (hs : d.scatterDimsToOperandDims = [0])
    (hv : d.indexVectorDim = 1) (idx : IVec ⟨2, ![E, 1]⟩ w) (j : (⟨2, ![E, C]⟩ : Shape).Idx) (n : Fin N) (k : Fin C) :
    d.resultIdx? j idx = some (ix2 n k) ↔ (idx (ixP (j 0))).toInt = (n.val : Int) ∧ j 1 = k := by
  have s0 := rows_start0 d hw hi hs hv idx j
  have s1 := rows_start1 d hs idx j
  have w0 := rows_window0 d hi j
  have w1 := rows_window1 d hw hi j
  have hn : n.val < N := n.isLt
  have hk : k.val < C := k.isLt
  have hj1 : (j 1).val < C := idx2_lt1 j
  unfold ScatterDims.resultIdx?
  constructor
  · intro h
    split at h
    · next hr =>
      have hf := Option.some.inj h
      have h0 : (d.start j idx 0 + d.window j 0).toNat = n.val := congrArg (fun f => (f 0).val) hf
      have h1 : (d.start j idx 1 + d.window j 1).toNat = k.val := congrArg (fun f => (f 1).val) hf
      have r0 := (hr 0).1
      rw [s0, w0] at h0 r0
      rw [s1, w1] at h1
      refine ⟨by omega, Fin.ext (by omega)⟩
    · exact absurd h (by simp)
  · rintro ⟨h0, h1⟩
    have hr : ∀ a, 0 ≤ d.start j idx a + d.window j a ∧
        d.start j idx a + d.window j a < (⟨2, ![N, C]⟩ : Shape).size a := by
      refine Fin.forall_fin_two.2 ⟨?_, ?_⟩
      · rw [s0, w0, h0]
        show (0 : Int) ≤ (n.val : Int) + ((0 : Nat) : Int) ∧ (n.val : Int) + ((0 : Nat) : Int) < (N : Int)
        omega
      · rw [s1, w1]
        show (0 : Int) ≤ 0 + ((j 1).val : Int) ∧ 0 + ((j 1).val : Int) < (C : Int)
        omega
    rw [dif_pos hr]
    congr 1
    funext a
    match a with
    | ⟨0, _⟩ =>
      apply Fin.ext
      show (d.start j idx 0 + d.window j 0).toNat = n.val
      rw [s0, w0, h0]; omega
    | ⟨1, _⟩ =>
      apply Fin.ext
      show (d.start j idx 1 + d.window j 1).toNat = k.val
      rw [s1, w1, h1]; omega

end Rows

/-- ROWS. Update `(e, k)` lands on `(n, k)` exactly when row `e`'s start word reads `n`. -/
theorem scatterAdd_rows_apply {N E C w : Nat} (d : ScatterDims ⟨2, ![N, C]⟩ ⟨2, ![E, 1]⟩ ⟨2, ![E, C]⟩)
    (hw : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : Int)), upd (ix2 e k) := by
  have key := fun j => rows_resultIdx_iff d hw hi hs hv idx j n k
  -- an update that lands on `(n, k)` is `(j 0, k)`
  have hback : ∀ j : (⟨2, ![E, C]⟩ : Shape).Idx, d.resultIdx? j idx = some (ix2 n k) → ix2 (j 0) k = j := by
    intro j hj
    rw [← ((key j).1 hj).2]
    exact (eq_ix2 j).symm
  show x (ix2 n k) + _ = _
  congr 1
  refine Finset.sum_bij' (fun j _ => j 0) (fun e _ => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    exact hback j (Finset.mem_filter.1 hj).2
  · intro e _
    rfl
  · intro j hj
    exact (congrArg upd (hback j (Finset.mem_filter.1 hj).2)).symm

section Vec
variable {N E w : Nat} (d : ScatterDims ⟨1, ![N]⟩ ⟨2, ![E, 1]⟩ ⟨1, ![E]⟩)

/-- On the one operand axis the window starts at update `j 0`'s start word, read signed. -/
theorem vec_start0
    (hw : d.updateWindowDims = []) (hi : d.insertedWindowDims = [0]) (hs : d.scatterDimsToOperandDims = [0])
    (hv : d.indexVectorDim = 1) (idx : IVec ⟨2, ![E, 1]⟩ w) (j : (⟨1, ![E]⟩ : Shape).Idx) :
    d.start j idx 0 = (idx (ixP (j 0))).toInt := by
  obtain ⟨uw, iw, sd, iv, wf⟩ := d
  dsimp only at hw hi hs hv
  subst hw hi hs hv
  unfold ScatterDims.start
  rw [dif_pos (List.mem_singleton.mpr rfl)]
  congr 2
  funext b
  match b with
  | ⟨0, _⟩ => rfl
  | ⟨1, _⟩ => rfl

/-- The one operand axis is inserted: no window coordinate. -/
theorem vec_window0
    (hi : d.insertedWindowDims = [0]) (j : (⟨1, ![E]⟩ : Shape).Idx) :
    d.window j 0 = 0 := by
  unfold ScatterDims.window
  rw [dif_neg (by simp [ScatterDims.sKept, Shape.kept, hi])]

/-- Update `j` lands on `n` exactly when its start word reads `n`. -/
theorem vec_resultIdx_iff
    (hw : d.updateWindowDims = []) (hi : d.insertedWindowDims = [0]) (hs : d.scatterDimsToOperandDims = [0])
    (hv : d.indexVectorDim = 1) (idx : IVec ⟨2, ![E, 1]⟩ w) (j : (⟨1, ![E]⟩ : Shape).Idx) (n : Fin N) :
    d.resultIdx? j idx = some (Shape.Idx.ofFin n) ↔ (idx (ixP (j 0))).toInt = (n.val : Int) := by
  have s0 := vec_start0 d hw hi hs hv idx j
  have w0 := vec_window0 d hi j
  have hn : n.val < N := n.isLt
  unfold ScatterDims.resultIdx?
  constructor
  · intro h
    split at h
    · next hr =>
      have hf := Option.some.inj h
      have h0 : (d.start j idx 0 + d.window j 0).toNat = n.val := congrArg (fun f => (f 0).val) hf
      have r0 := (hr 0).1
      rw [s0, w0] at h0 r0
      omega
    · exact absurd h (by simp)
  · intro h0
    have hr : ∀ a, 0 ≤ d.start j idx a + d.window j a ∧
        d.start j idx a + d.window j a < (⟨1, ![N]⟩ : Shape).size a := by
      intro a
      obtain rfl : a = 0 := Subsingleton.elim _ _
      rw [s0, w0, h0]
      show (0 : Int) ≤ (n.val : Int) + ((0 : Nat) : Int) ∧ (n.val : Int) + ((0 : Nat) : Int) < (N : Int)
      omega
    rw [dif_pos hr]
    congr 1
    funext a
    obtain rfl : a = 0 := Subsingleton.elim _ _
    apply Fin.ext
    show (d.start j idx 0 + d.window j 0).toNat = n.val
    rw [s0, w0, h0]; omega

end Vec

/-- A VECTOR. Update `e` lands on `n` exactly when its start word reads `n`. -/
theorem scatterAdd_vec_apply {N E w : Nat} (d : ScatterDims ⟨1, ![N]⟩ ⟨2, ![E, 1]⟩ ⟨1, ![E]⟩)
    (hw : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (Shape.Idx.ofFin n)
      = x (Shape.Idx.ofFin n) + ∑ e ∈ Finset.univ.filter (fun e : Fin E => (idx (ixP e)).toInt = (n.val : Int)), upd (Shape.Idx.ofFin e) := by
  have key := fun j => vec_resultIdx_iff d hw hi hs hv idx j n
  show x (Shape.Idx.ofFin n) + _ = _
  congr 1
  refine Finset.sum_bij' (fun j _ => j 0) (fun e _ => Shape.Idx.ofFin e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (Shape.Idx.ofFin e)).2 (Finset.mem_filter.1 he).2⟩
  · intro j _
    exact (Shape.Idx.eq_ofFin j).symm
  · intro e _
    rfl
  · intro j _
    exact congrArg upd (Shape.Idx.eq_ofFin j)

section Gather
variable {N E C w : Nat} (d : GatherDims ⟨2, ![N, C]⟩ ⟨2, ![E, 1]⟩ ⟨2, ![E, C]⟩)

/-- On the row axis the slice starts at row `j 0`'s start word, read signed and clamped to the last row. -/
theorem gather_start0
    (hoff : d.offsetDims = [1]) (hsim : d.startIndexMap = [0]) (hivd : d.indexVectorDim = 1)
    (hsl : d.sliceSizes = ![1, C]) (idx : IVec ⟨2, ![E, 1]⟩ w) (j : (⟨2, ![E, C]⟩ : Shape).Idx) :
    d.start j idx 0 = min (idx (ixP (j 0))).toInt.toNat (N - 1) := by
  obtain ⟨od, cd, ob, sb, sm, iv, ss, wf⟩ := d
  dsimp only at hoff hsim hivd hsl
  subst hoff hsim hivd hsl
  unfold GatherDims.start
  rw [dif_pos (List.mem_singleton.mpr rfl)]
  show min (idx _).toInt.toNat (N - 1) = _
  congr 4
  funext b
  match b with
  | ⟨0, _⟩ => rfl
  | ⟨1, _⟩ => rfl

/-- The column axis is not start-indexed. -/
theorem gather_start1
    (hsim : d.startIndexMap = [0]) (idx : IVec ⟨2, ![E, 1]⟩ w) (j : (⟨2, ![E, C]⟩ : Shape).Idx) :
    d.start j idx 1 = 0 := by
  unfold GatherDims.start
  rw [dif_neg (by rw [hsim]; simp)]

/-- The row axis is collapsed: no offset coordinate. -/
theorem gather_off0
    (hcoll : d.collapsedSliceDims = [0]) (j : (⟨2, ![E, C]⟩ : Shape).Idx) :
    d.offCoord j 0 = 0 :=
  d.offCoord_eq_zero j 0 (by rw [GatherDims.mem_sKept, hcoll]; simp)

/-- The column axis carries the result's column. -/
theorem gather_off1
    (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, iv, ss, wf⟩ := d
  dsimp only at hoff hcoll hob
  subst hoff hcoll hob
  unfold GatherDims.offCoord
  rw [dif_pos (by simp [GatherDims.sKept, Shape.kept])]
  rfl

end Gather

/-- ROWS GATHERED. Result `(e, k)` is the operand at row `e`'s start word, read signed and clamped, column `k`. -/
theorem gather_rows_apply {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hsl : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ixP e)).toInt.toNat (N - 1), by omega⟩ : Fin N) k) := by
  have hb : ∀ a, d.batchCoord (ix2 e k) a = 0 := fun a =>
    d.batchCoord_eq_zero _ a (by rw [hob]; exact List.not_mem_nil)
  unfold Host.gather
  congr 1
  funext a
  match a with
  | ⟨0, _⟩ =>
    apply Fin.ext
    show d.start (ix2 e k) idx 0 + d.batchCoord (ix2 e k) 0 + d.offCoord (ix2 e k) 0 = min (idx (ixP e)).toInt.toNat (N - 1)
    rw [gather_start0 d hoff hsim hivd hsl, hb, gather_off0 d hcoll]
    rfl
  | ⟨1, _⟩ =>
    apply Fin.ext
    show d.start (ix2 e k) idx 1 + d.batchCoord (ix2 e k) 1 + d.offCoord (ix2 e k) 1 = k.val
    rw [gather_start1 d hsim, hb, gather_off1 d hoff hcoll hob]
    show 0 + 0 + k.val = k.val
    omega

end Cert.EdgeSum

end
-- ==== Proof.RefSide.lean ====
/-
  The reference's side.  Its program is the same layer three times: the layer is named here as one
  function of the feature array, the weights, the bias and the two edge arrays, and the run's result
  is the third layer of the positive part of the second of the positive part of the first.
-/
import proofs.«427492_j7026566496443_3_alg».proof.Proof.Gen.ReferenceIdeal.Run
import proofs.«427492_j7026566496443_3_alg».proof.Proof.Spec
import proofs.«427492_j7026566496443_3_alg».proof.Proof.EdgeSum
import Idealize.ShloMosaic.PureOps.Ideal.Laws
import proofs.«427492_j7026566496443_3_alg».proof.Proof.Gen.ReferenceIdeal.Read

noncomputable section

namespace Cert.ReferenceIdeal.RefSide

open Cert.ReferenceIdeal Cert.ReferenceIdeal.Gen Idealize.ShloMosaic Idealize.ShloMosaic.TcCoe Idealize.SL.Sem

variable {F : FTy → Type} [FloatOps F]

/-- The rows the edges' sources name, summed onto the rows their destinations name. -/
def aggTerm (feat : FVec F S100000x64 .f32) (src dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A one per edge, summed onto the node its destination names: the in-degree. -/
def degTerm (dst : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- One layer before its activation: the mean of the incoming rows times the left weight, plus the bias,
    plus the node's own row times the right weight. -/
def layerTerm (feat : FVec F S100000x64 .f32) (Wl Wr : FVec F S64x64 .f32) (b : FVec F S64 .f32)
    (src dst : IVec S1600000 32) : FVec F S100000x64 .f32 :=
  addf (addf (Host.dotGeneral dot_S100000x64_S64x64_S100000x64_1_0_0_1_n_n none
      (Host.divf (aggTerm feat src dst)
        (broadcastInDim S100000x64 ![0, 1] bcast_S100000x1_S100000x64_0_1
          (broadcastInDim S100000x1 ![0] bcast_S100000_S100000x1_0
            (maximumf (degTerm dst) (broadcastInDim S100000 ![] bcast_S_S100000 (constant S_ .f32 0x3F800000#32))))))
      Wl)
    (broadcastInDim S100000x64 ![0, 1] bcast_S1x64_S100000x64_0_1 (broadcastInDim S1x64 ![1] bcast_S64_S1x64_1 b)))
    (Host.dotGeneral dot_S100000x64_S64x64_S100000x64_1_0_0_1_n_n none feat Wr)

/-- The positive part of an array. -/
def reluTerm (x : FVec F S100000x64 .f32) : FVec F S100000x64 .f32 :=
  maximumf x (broadcastInDim S100000x64 ![] bcast_S_S100000x64 (constant S_ .f32 0x00000000#32))

variable (m : (ℓ : Loc nD τ sig) → Buf (Elt F) ℓ) (c : Dev nD)

set_option maxRecDepth 8192 in
/-- The run's result is the three layers composed. -/
theorem res_eq :
    Cert.ReferenceIdeal.Value.res_main_v76 m c
      = layerTerm (reluTerm (layerTerm (reluTerm (layerTerm (m ((c.tc : Thread nD τ).loc main_arg0))
              (m ((c.tc : Thread nD τ).loc main_arg1)) (m ((c.tc : Thread nD τ).loc main_arg2)) (m ((c.tc : Thread nD τ).loc main_arg3))
              (m ((c.tc : Thread nD τ).loc main_arg10)) (m ((c.tc : Thread nD τ).loc main_arg11))))
            (m ((c.tc : Thread nD τ).loc main_arg4)) (m ((c.tc : Thread nD τ).loc main_arg5)) (m ((c.tc : Thread nD τ).loc main_arg6))
            (m ((c.tc : Thread nD τ).loc main_arg10)) (m ((c.tc : Thread nD τ).loc main_arg11))))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v76 layerTerm reluTerm aggTerm degTerm
  rfl

/-! ## The layer read at an index, over the extended reals -/

/-- A splat of a float word, read anywhere, is the extended real the word encodes. -/
theorem splat_apply {t : Shape} (h : (S_ : Shape).BroadcastsInDim t ![]) (w : BitVec 32) (j : t.Idx) :
    broadcastInDim t ![] h (constant (F := Ideal) S_ .f32 w) j = Ideal.ofBits .f32 w := rfl

/-- The source word wrapped once by the table's height when negative, read at an edge. -/
theorem wrap_apply (src : IVec S1600000 32) (i : S1600000.Idx) :
    select (cmpi .slt src (broadcastInDim S1600000 ![] bcast_S_S1600000 (constantI S_ 32 0#32)))
        (addi src (broadcastInDim S1600000 ![] bcast_S_S1600000 (constantI S_ 32 100000#32))) src i
      = Scalar.select (IntOp.cmpi .slt (src i) 0#32) (IntOp.addi (src i) 100000#32) (src i) := rfl

/-- A gathered row read at `(e, k)`, once the edge's start word is known: the table's row at that word, read
    signed and clamped into the table. -/
theorem gather_row (feat : FVec Ideal S100000x64 .f32) (idx : IVec S1600000x1 32) (e : Fin 1600000) (k : Fin 64)
    (w : BitVec 32) (hw : idx (StableHlo.Predicate.ixP e) = w) :
    Host.gather gather_S100000x64_S1600000x1_S1600000x64_1_0_n_n_0_1_164 feat idx (ValueIdx.ix2 e k)
      = feat (ValueIdx.ix2 (⟨min w.toInt.toNat (100000 - 1), by omega⟩ : Fin 100000) k) := by
  subst hw
  exact Cert.EdgeSum.gather_rows_apply (N := 100000) (E := 1600000) (C := 64) (w := 32)
    gather_S100000x64_S1600000x1_S1600000x64_1_0_n_n_0_1_164 rfl rfl rfl rfl rfl rfl rfl feat idx e k (Nat.succ_pos _)

open Idealize.ShloMosaic.ValueIdx in
/-- The summed rows at `(n, k)`: the zero word plus the source rows' column `k` over the edges landing on `n`. -/
theorem aggTerm_apply (feat : FVec Ideal S100000x64 .f32) (src dst : IVec S1600000 32) (n : Fin 100000) (k : Fin 64) :
    aggTerm (F := Ideal) feat src dst (ix2 n k) = Cert.Spec.aggAt feat src dst n k := by
  unfold aggTerm
  rw [Host.scatterAdd, Ideal.hostScatterAdd_def]
  have h := Cert.EdgeSum.scatterAdd_rows_apply (N := 100000) (E := 1600000) (C := 64) (w := 32)
    scatter_S100000x64_S1600000x1_S1600000x64_1_0_0_1 rfl rfl rfl rfl
  rw [h]
  unfold Cert.Spec.aggAt Cert.Spec.landsOn
  rw [splat_apply]
  refine congrArg (fun t => Ideal.ofBits .f32 0x00000000#32 + t) ?_
  refine Finset.sum_congr (Finset.filter_congr fun e _ => ?_) fun e _ => ?_
  · rw [StableHlo.Predicate.bcast_col1]
  · rw [gather_row feat _ e k _ (by rw [StableHlo.Predicate.bcast_col1, wrap_apply])]
    rfl

/-- The in-degree at `n`: the zero word plus a one per edge landing on `n`. -/
theorem degTerm_apply (dst : IVec S1600000 32) (n : Fin 100000) :
    degTerm (F := Ideal) dst (Shape.Idx.ofFin n) = Cert.Spec.degAt dst n := by
  unfold degTerm
  rw [Host.scatterAdd, Ideal.hostScatterAdd_def]
  have h := Cert.EdgeSum.scatterAdd_vec_apply (N := 100000) (E := 1600000) (w := 32)
    scatter_S100000_S1600000x1_S1600000_n_0_0_1 rfl rfl rfl rfl
  rw [h]
  unfold Cert.Spec.degAt Cert.Spec.landsOn
  rw [splat_apply]
  refine congrArg (fun t => Ideal.ofBits .f32 0x00000000#32 + t) ?_
  refine Finset.sum_congr (Finset.filter_congr fun e _ => ?_) fun e _ => ?_
  · rw [StableHlo.Predicate.bcast_col1]
  · exact splat_apply _ _ _

/-- A vector laid along the rows of the feature rectangle reads, at `(p, q)`, the vector at `p`. -/
theorem rows_apply {α : Type} (v : S100000.Idx → α) (p : Fin 100000) (q : Fin 64) :
    broadcastInDim S100000x64 ![0, 1] bcast_S100000x1_S100000x64_0_1
        (broadcastInDim S100000x1 ![0] bcast_S100000_S100000x1_0 v) (ValueIdx.ix2 p q)
      = v (Shape.Idx.ofFin p) :=
  StableHlo.Predicate.bcast_rows bcast_S100000_S100000x1_0 bcast_S100000x1_S100000x64_0_1 v p q

/-- A vector laid along the columns of the feature rectangle reads, at `i`, the vector at `i`'s column. -/
theorem cols_apply {α : Type} (v : S64.Idx → α) (i : S100000x64.Idx) :
    broadcastInDim S100000x64 ![0, 1] bcast_S1x64_S100000x64_0_1
        (broadcastInDim S1x64 ![1] bcast_S64_S1x64_1 v) i
      = v (Shape.Idx.ofFin (i 1)) := by
  exact (congrArg (broadcastInDim S100000x64 ![0, 1] bcast_S1x64_S100000x64_0_1
      (broadcastInDim S1x64 ![1] bcast_S64_S1x64_1 v)) (StableHlo.Predicate.ij_eta i)).symm.trans
    (StableHlo.Predicate.bcast_cols bcast_S64_S1x64_1 bcast_S1x64_S100000x64_0_1 v (i 0) (i 1))

/-- The host's quotient at an index is the extended reals' division of the elements. -/
theorem hostDivf_apply {s : Shape} (x y : FVec Ideal s .f32) (j : s.Idx) :
    Host.divf x y j = Ideal.div (x j) (y j) := rfl

/-- The product with a weight matrix read at an index: the sum over the shared axis. -/
theorem dot_apply (x : FVec Ideal S100000x64 .f32) (W : FVec Ideal S64x64 .f32) (i : S100000x64.Idx) :
    Host.dotGeneral dot_S100000x64_S64x64_S100000x64_1_0_0_1_n_n none x W i
      = ∑ k : Fin 64, x (ValueIdx.ix2 (i 0) k) * W (ValueIdx.ix2 k (i 1)) := by
  show FloatOps.dotGeneral dot_S100000x64_S64x64_S100000x64_1_0_0_1_n_n none .single x W i = _
  rw [Ideal.dotGeneral_apply,
    ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i
      ((ValueIdx.contrEquiv1 dot_S100000x64_S64x64_S100000x64_1_0_0_1_n_n 64 rfl rfl).symm k)
        = ValueIdx.ix2 (i 0) k := funext fun a => Fin.ext (by
    match a with
    | ⟨0, _⟩ => exact Read.lhs_main_v19_0 _ _
    | ⟨1, _⟩ => exact (Read.lhs_main_v19_1 _ _).trans hk)
  have er : dot_S100000x64_S64x64_S100000x64_1_0_0_1_n_n.rhsIdx i
      ((ValueIdx.contrEquiv1 dot_S100000x64_S64x64_S100000x64_1_0_0_1_n_n 64 rfl rfl).symm k)
        = ValueIdx.ix2 k (i 1) := funext fun a => Fin.ext (by
    match a with
    | ⟨0, _⟩ => exact (Read.rhs_main_v19_0 _ _).trans hk
    | ⟨1, _⟩ => exact Read.rhs_main_v19_1 _ _)
  exact congrArg₂ (fun a c => x a * W c) el er

/-- The layer before its activation, as the index-by-index function of its summed rows and in-degrees. -/
theorem layerTerm_eq (feat : FVec Ideal S100000x64 .f32) (Wl Wr : FVec Ideal S64x64 .f32) (b : FVec Ideal S64 .f32)
    (src dst : IVec S1600000 32) :
    layerTerm (F := Ideal) feat Wl Wr b src dst
      = Cert.Spec.denseR false (aggTerm (F := Ideal) feat src dst) feat (degTerm (F := Ideal) dst) Wl Wr b := by
  funext i
  unfold layerTerm
  rw [ValueIdx.addf_apply, ValueIdx.addf_apply, dot_apply, dot_apply, cols_apply]
  unfold Cert.Spec.denseR Cert.Spec.act
  rw [if_neg Bool.false_ne_true]
  refine congrArg₂ (· + ·) (congrArg₂ (· + ·) (Finset.sum_congr rfl fun k _ => ?_) rfl) rfl
  rw [hostDivf_apply, rows_apply _ (i 0) k, ValueIdx.maximumf_apply, splat_apply]

/-- The same under the positive part. -/
theorem relu_layerTerm_eq (feat : FVec Ideal S100000x64 .f32) (Wl Wr : FVec Ideal S64x64 .f32) (b : FVec Ideal S64 .f32)
    (src dst : IVec S1600000 32) :
    reluTerm (F := Ideal) (layerTerm (F := Ideal) feat Wl Wr b src dst)
      = Cert.Spec.denseR true (aggTerm (F := Ideal) feat src dst) feat (degTerm (F := Ideal) dst) Wl Wr b := by
  rw [layerTerm_eq]
  funext i
  unfold reluTerm
  rw [ValueIdx.maximumf_apply, splat_apply]
  unfold Cert.Spec.denseR Cert.Spec.act
  rw [if_neg Bool.false_ne_true, if_pos rfl]

end Cert.ReferenceIdeal.RefSide

end
-- ==== Proof.SortTake.lean ====
/-
  An argsort is a permutation of the positions, and a take through it reads the table at the permuted
  position.

  The second result of a two-operand stable sort that carries the position numbers holds, at place `e`,
  the number of the position whose entry the sort puts there.  Those numbers are below the length, hence
  non-negative as signed words, so the wrap of negative indices leaves them alone and the clamp of the
  take does not move them.
-/
import Idealize.ShloMosaic.PureOps.Ideal
import Idealize.ShloMosaic.Lib.ValueIdx
import Idealize.ShloMosaic.Lib.StableHlo.Predicate
import Idealize.ShloMosaic.Lib.SortFacts

noncomputable section

namespace Cert.SortTake

open Idealize.ShloMosaic Idealize.ShloMosaic.ValueIdx Idealize.ShloMosaic.StableHlo.Predicate

/-- The comparator the sort builds on the positions of the one fiber: position `k` carries the pair of its key and
    its own number. -/
def before {n : Nat} (cmp : BitVec 32 × BitVec 32 → BitVec 32 × BitVec 32 → BitVec 1) (keys : IVec ⟨1, ![n]⟩ 32)
    (k k' : Fin n) : Bool :=
  cmp (keys (Shape.Idx.ofFin k), BitVec.ofNat 32 k.val) (keys (Shape.Idx.ofFin k'), BitVec.ofNat 32 k'.val) == 1#1

/-- The sort's permutation of the positions: place `e` receives the entry of position `sortPerm cmp keys e`. -/
def sortPerm {n : Nat} (cmp : BitVec 32 × BitVec 32 → BitVec 32 × BitVec 32 → BitVec 1) (keys : IVec ⟨1, ![n]⟩ 32) :
    Equiv.Perm (Fin n) :=
  Equiv.ofBijective (sortedFrom (before cmp keys))
    ⟨sortedFrom_injective (before cmp keys), sortedFrom_surjective (before cmp keys)⟩

/-- The permutation is the stable sort's source map under the comparator on (key, number) pairs. -/
theorem sortPerm_apply {n : Nat} (cmp : BitVec 32 × BitVec 32 → BitVec 32 × BitVec 32 → BitVec 1)
    (keys : IVec ⟨1, ![n]⟩ 32) (e : Fin n) : sortPerm cmp keys e = sortedFrom (before cmp keys) e := rfl

/-- The carried numbers after the sort: place `e` holds the number of the position the sort reads there. -/
theorem sort2_snd_ofFin {n : Nat} (cmp : BitVec 32 × BitVec 32 → BitVec 32 × BitVec 32 → BitVec 1)
    (keys : IVec ⟨1, ![n]⟩ 32) (e : Fin n) :
    (Host.sort2 ⟨1, ![n]⟩ 0 cmp keys (iotaInDim ⟨1, ![n]⟩ 32 0)).2 (Shape.Idx.ofFin e)
      = BitVec.ofNat 32 (sortPerm cmp keys e).val := by
  rw [sortPerm_apply]
  unfold Host.sort2
  rw [dif_pos (show 0 < (⟨1, ![n]⟩ : Shape).rank from Nat.zero_lt_one)]
  show iotaInDim ⟨1, ![n]⟩ 32 0 ((Shape.Idx.ofFin e).along (0 : Fin 1)
      (sortedFrom (n := n) (fun k k' : Fin n =>
          cmp (keys ((Shape.Idx.ofFin e).along (0 : Fin 1) k),
                iotaInDim ⟨1, ![n]⟩ 32 0 ((Shape.Idx.ofFin e).along (0 : Fin 1) k))
              (keys ((Shape.Idx.ofFin e).along (0 : Fin 1) k'),
                iotaInDim ⟨1, ![n]⟩ 32 0 ((Shape.Idx.ofFin e).along (0 : Fin 1) k')) == 1#1)
        e)) = _
  simp only [Shape.Idx.along_rank1, iota_apply]
  rfl

/-- A table of words whose entry at `e` is a number `v` below 2³¹: the wrap of negative words (add `addend` where the
    word is signed-less-than zero) leaves the entry alone, and the column it is broadcast to reads it at row `e`. -/
theorem wrapped_word {n : Nat} (hb0 : (⟨0, ![]⟩ : Shape).BroadcastsInDim ⟨1, ![n]⟩ ![])
    (hb1 : (⟨1, ![n]⟩ : Shape).BroadcastsInDim ⟨2, ![n, 1]⟩ ![0])
    (ord addend : IVec ⟨1, ![n]⟩ 32) (e : Fin n) (v : Nat) (hv : v < 2 ^ 31)
    (h : ord (Shape.Idx.ofFin e) = BitVec.ofNat 32 v) :
    broadcastInDim ⟨2, ![n, 1]⟩ ![0] hb1
        (select (cmpi .slt ord (broadcastInDim ⟨1, ![n]⟩ ![] hb0 (constantI ⟨0, ![]⟩ 32 0#32)))
          (addi ord addend) ord) (ixP e) = BitVec.ofNat 32 v := by
  rw [bcast_col1, select_apply]
  have hc : cmpi .slt ord (broadcastInDim ⟨1, ![n]⟩ ![] hb0 (constantI ⟨0, ![]⟩ 32 0#32)) (Shape.Idx.ofFin e)
      = 0#1 := by
    apply eq_zero_of_ne_one
    show ¬ IntOp.cmpi .slt (ord (Shape.Idx.ofFin e))
        (broadcastInDim ⟨1, ![n]⟩ ![] hb0 (constantI ⟨0, ![]⟩ 32 0#32) (Shape.Idx.ofFin e)) = 1#1
    rw [h, bcast_scalar hb0 (by decide)]
    show ¬ BitVec.ofBool ((BitVec.ofNat 32 v).slt (BitVec.ofNat 32 0)) = 1#1
    rw [slt_ofNat_iff v 0 hv (by norm_num)]
    exact Nat.not_lt_zero v
  rw [hc, select_zero, h]

/-- THE TAKE THROUGH THE ARGSORT. With `ord` the carried position numbers after the sort, the take of any table
    `x` at `ord` (negative words wrapped by any addend, as jnp writes it) reads `x` at the permuted position. -/
theorem argsort_take {α : Type} {n : Nat} (hn0 : 0 < n) (hn : n < 2 ^ 31)
    (cmp : BitVec 32 × BitVec 32 → BitVec 32 × BitVec 32 → BitVec 1) (keys : IVec ⟨1, ![n]⟩ 32)
    (d : GatherDims ⟨1, ![n]⟩ ⟨2, ![n, 1]⟩ ⟨1, ![n]⟩)
    (hcoll : d.collapsedSliceDims = [0]) (hob : d.operandBatchingDims = [])
    (hsim : d.startIndexMap = [0]) (hivd : d.indexVectorDim = 1)
    (hb0 : (⟨0, ![]⟩ : Shape).BroadcastsInDim ⟨1, ![n]⟩ ![])
    (hb1 : (⟨1, ![n]⟩ : Shape).BroadcastsInDim ⟨2, ![n, 1]⟩ ![0])
    (addend : IVec ⟨1, ![n]⟩ 32) (x : (⟨1, ![n]⟩ : Shape).Idx → α) (e : Fin n) :
    Host.gather d x (broadcastInDim ⟨2, ![n, 1]⟩ ![0] hb1
        (select (cmpi .slt (Host.sort2 ⟨1, ![n]⟩ 0 cmp keys (iotaInDim ⟨1, ![n]⟩ 32 0)).2
                   (broadcastInDim ⟨1, ![n]⟩ ![] hb0 (constantI ⟨0, ![]⟩ 32 0#32)))
          (addi (Host.sort2 ⟨1, ![n]⟩ 0 cmp keys (iotaInDim ⟨1, ![n]⟩ 32 0)).2 addend)
          (Host.sort2 ⟨1, ![n]⟩ 0 cmp keys (iotaInDim ⟨1, ![n]⟩ 32 0)).2)) (Shape.Idx.ofFin e)
      = x (Shape.Idx.ofFin (sortPerm cmp keys e)) := by
  have hp : (sortPerm cmp keys e).val < 2 ^ 31 := lt_trans (sortPerm cmp keys e).isLt hn
  have hw := wrapped_word hb0 hb1 _ addend e _ hp (sort2_snd_ofFin cmp keys e)
  have hg := gather_take d hcoll hob hsim hivd x
    (broadcastInDim ⟨2, ![n, 1]⟩ ![0] hb1
      (select (cmpi .slt (Host.sort2 ⟨1, ![n]⟩ 0 cmp keys (iotaInDim ⟨1, ![n]⟩ 32 0)).2
                 (broadcastInDim ⟨1, ![n]⟩ ![] hb0 (constantI ⟨0, ![]⟩ 32 0#32)))
        (addi (Host.sort2 ⟨1, ![n]⟩ 0 cmp keys (iotaInDim ⟨1, ![n]⟩ 32 0)).2 addend)
        (Host.sort2 ⟨1, ![n]⟩ 0 cmp keys (iotaInDim ⟨1, ![n]⟩ 32 0)).2)) e hn0
  refine hg.trans (congrArg x (congrArg Shape.Idx.ofFin (Fin.ext ?_)))
  show min _ (n - 1) = (sortPerm cmp keys e).val
  rw [hw, toInt_ofNat_small _ hp, Int.toNat_natCast]
  have := (sortPerm cmp keys e).isLt
  omega

/- The permutation is characterised by `sortPerm_apply`; it is opaque from here on. -/
attribute [irreducible] sortPerm

end Cert.SortTake

end
-- ==== Proof.LayerLaw.lean ====
/-
  The laws that join the two orders of a layer.

  The in-degree of a node is a natural number, so its maximum with one is a nonzero real: dividing by it is
  multiplying by its reciprocal, at the infinities too.  Addition of extended reals is commutative and
  associative, so the bias may be added before or after the second product, and a sum over the edges landing
  on a node does not depend on the order in which the edges are listed.
-/
import proofs.«427492_j7026566496443_3_alg».proof.Proof.Spec
import Idealize.ShloMosaic.PureOps.Ideal.Laws

noncomputable section

namespace Cert.Spec

open Idealize.ShloMosaic Idealize.ShloMosaic.ValueIdx

theorem zeroE_eq : zeroE = 0 := Ideal.ofBits_zero_f32

theorem oneE_eq : oneE = 1 := by
  show Ideal.ofBits .f32 0x3F800000#32 = 1
  simp [Ideal.ofBits, Ideal.ieee, -EReal.coe_mul]; norm_num

/-- So many ones add up to that natural number. -/
theorem nsmul_one_eq (k : ℕ) : k • (1 : EReal) = ((k : ℝ) : EReal) := by
  induction k with
  | zero => simp
  | succ k ih => rw [succ_nsmul, ih, Nat.cast_succ, EReal.coe_add, EReal.coe_one]

/-- The in-degree is the number of edges landing on the node. -/
theorem degAt_eq (dst : (⟨1, ![EE]⟩ : Shape).Idx → BitVec 32) (n : Fin NN) :
    degAt dst n = (((landsOn dst n).card : ℝ) : EReal) := by
  unfold degAt
  rw [zeroE_eq, oneE_eq, zero_add, Finset.sum_const, nsmul_one_eq]

/-- Its maximum with one is a real number, at least one. -/
theorem max_degAt (dst : (⟨1, ![EE]⟩ : Shape).Idx → BitVec 32) (n : Fin NN) :
    max (degAt dst n) oneE = ((max ((landsOn dst n).card : ℝ) 1 : ℝ) : EReal) := by
  rw [degAt_eq, oneE_eq, ← EReal.coe_one]
  exact (EReal.coe_strictMono.monotone.map_max).symm

/-- Dividing by it is multiplying by its reciprocal. -/
theorem div_max_degAt (dst : (⟨1, ![EE]⟩ : Shape).Idx → BitVec 32) (n : Fin NN) (x : EReal) :
    Ideal.div x (max (degAt dst n) oneE) = x * Ideal.div oneE (max (degAt dst n) oneE) := by
  have hne : (max ((landsOn dst n).card : ℝ) 1 : ℝ) ≠ 0 := by
    have : (1 : ℝ) ≤ max ((landsOn dst n).card : ℝ) 1 := le_max_right _ _
    intro h; rw [h] at this; norm_num at this
  rw [max_degAt, Ideal.div_coe hne, Ideal.div_coe hne, oneE_eq, one_mul]

/-- THE TWO ORDERS OF A LAYER agree: the kernel's `((agg · inv) Wl + feat Wr) + b` with `inv` the reciprocal of the
    in-degree, and the reference's `((agg / deg) Wl + b) + feat Wr`. -/
theorem denseK_eq_denseR (relu : Bool) (agg feat : (⟨2, ![NN, DD]⟩ : Shape).Idx → EReal)
    (dst : (⟨1, ![EE]⟩ : Shape).Idx → BitVec 32) (deg : (⟨1, ![NN]⟩ : Shape).Idx → EReal)
    (inv : (⟨2, ![NN, 1]⟩ : Shape).Idx → EReal)
    (Wl Wr : (⟨2, ![DD, DD]⟩ : Shape).Idx → EReal) (brow : (⟨2, ![1, DD]⟩ : Shape).Idx → EReal)
    (b : (⟨1, ![DD]⟩ : Shape).Idx → EReal)
    (hdeg : ∀ n : Fin NN, deg (Shape.Idx.ofFin n) = degAt dst n)
    (hinv : ∀ n : Fin NN, inv (ix2 n (0 : Fin 1)) = Ideal.div oneE (max (degAt dst n) oneE))
    (hb : ∀ j : Fin DD, brow (ix2 (0 : Fin 1) j) = b (Shape.Idx.ofFin j)) :
    denseK relu agg feat inv Wl Wr brow = denseR relu agg feat deg Wl Wr b := by
  funext i
  unfold denseK denseR
  refine congrArg (act relu) ?_
  rw [hb (i 1), add_right_comm]
  refine congrArg₂ (· + ·) (congrArg₂ (· + ·) ?_ rfl) rfl
  refine Finset.sum_congr rfl fun k _ => ?_
  rw [hinv (i 0), hdeg (i 0), div_max_degAt dst (i 0) (agg (ix2 (i 0) k))]

/-- A sum over the edges landing on a node, read through a permutation of the edges, is the same sum. -/
theorem aggAt_perm (feat : (⟨2, ![NN, DD]⟩ : Shape).Idx → EReal) (src dst sS dS : (⟨1, ![EE]⟩ : Shape).Idx → BitVec 32)
    (π : Equiv.Perm (Fin EE))
    (hs : ∀ e : Fin EE, sS (Shape.Idx.ofFin e) = src (Shape.Idx.ofFin (π e)))
    (hd : ∀ e : Fin EE, dS (Shape.Idx.ofFin e) = dst (Shape.Idx.ofFin (π e))) (n : Fin NN) (k : Fin DD) :
    aggAt feat sS dS n k = aggAt feat src dst n k := by
  unfold aggAt landsOn
  refine congrArg (fun t => zeroE + t) ?_
  refine Finset.sum_equiv π (fun e => ?_) (fun e _ => ?_)
  · simp only [Finset.mem_filter, Finset.mem_univ, true_and, hd]
  · rw [hs]

/-- The in-degrees likewise. -/
theorem degAt_perm (dst dS : (⟨1, ![EE]⟩ : Shape).Idx → BitVec 32) (π : Equiv.Perm (Fin EE))
    (hd : ∀ e : Fin EE, dS (Shape.Idx.ofFin e) = dst (Shape.Idx.ofFin (π e))) (n : Fin NN) :
    degAt dS n = degAt dst n := by
  unfold degAt landsOn
  refine congrArg (fun t => zeroE + t) ?_
  refine Finset.sum_equiv π (fun e => ?_) (fun e _ => rfl)
  simp only [Finset.mem_filter, Finset.mem_univ, true_and, hd]

end Cert.Spec

end
-- ==== Proof.Bridge.lean ====
/-
  The kernel's program computes the reference's three layers.

  The kernel sorts the edges by destination and works through the sorted source and destination arrays;
  those are the original arrays read through one permutation of the edges, and a sum over the edges that
  land on a node does not see the order of the edges.  Its reciprocal in-degree times the summed rows is the
  reference's quotient, and its order of adding the bias is the reference's by commutativity.  So each launch
  leaves the reference's layer of what the launch before it left.
-/
import proofs.«427492_j7026566496443_3_alg».proof.Proof.KChain
import proofs.«427492_j7026566496443_3_alg».proof.Proof.KBlocks
import proofs.«427492_j7026566496443_3_alg».proof.Proof.RefSide
import proofs.«427492_j7026566496443_3_alg».proof.Proof.SortTake
import proofs.«427492_j7026566496443_3_alg».proof.Proof.LayerLaw
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Cert.Spec

/-! ## The kernel's host terms are the reference's, over the extended reals

The two programs print the same dimension records and the same broadcasts; a change of float format is the
identity on the extended reals. -/

theorem degTerm_eq (dS : IVec Cert.KernelIdeal.S1600000 32) :
    Cert.KernelIdeal.KSide.degTerm (F := Ideal) dS = Cert.ReferenceIdeal.RefSide.degTerm (F := Ideal) dS := rfl

theorem aggTerm_eq (feat : FVec Ideal Cert.KernelIdeal.S100000x64 .f32) (sS dS : IVec Cert.KernelIdeal.S1600000 32) :
    Cert.KernelIdeal.KSide.aggTerm (F := Ideal) feat sS dS = Cert.ReferenceIdeal.RefSide.aggTerm (F := Ideal) feat sS dS := rfl

/-! ## The kernel's column of reciprocals and its bias row, read at an index -/

theorem browTerm_apply (b : FVec Ideal Cert.KernelIdeal.S64 .f32) (j : Fin 64) :
    Cert.KernelIdeal.KSide.browTerm (F := Ideal) b (ix2 (0 : Fin 1) j) = b (Shape.Idx.ofFin j) := by
  unfold Cert.KernelIdeal.KSide.browTerm
  refine shapeCast_apply b _ (ix2 (0 : Fin 1) j) (Shape.Idx.ofFin j) ?_
  rw [Shape.rowMajor_val_one, Shape.rowMajor_val_two, Shape.Idx.ofFin_zero]
  simp

/-- The column of reciprocals read at a row, for any array of in-degrees. -/
theorem inv_of_deg (deg : FVec Ideal Cert.KernelIdeal.S100000 .f32) (n : Fin 100000) :
    shapeCast Cert.KernelIdeal.S100000x1
        (Host.divf (broadcastInDim Cert.KernelIdeal.S100000 ![] Cert.KernelIdeal.Facts₀.bcast_S_S100000
            (constant (F := Ideal) Cert.KernelIdeal.S_ .f32 0x3F800000#32))
          (maximumf deg (broadcastInDim Cert.KernelIdeal.S100000 ![] Cert.KernelIdeal.Facts₀.bcast_S_S100000
            (constant (F := Ideal) Cert.KernelIdeal.S_ .f32 0x3F800000#32))))
        Cert.KernelIdeal.Facts₀.shapeCasts_S100000_S100000x1 (ix2 n (0 : Fin 1))
      = Ideal.div oneE (max (deg (Shape.Idx.ofFin n)) oneE) := by
  refine (shapeCast_apply _ _ (ix2 n (0 : Fin 1)) (Shape.Idx.ofFin n) ?_).trans rfl
  rw [Shape.rowMajor_val_one, Shape.rowMajor_val_two, Shape.Idx.ofFin_zero]
  simp

theorem invTerm_apply (dS : IVec Cert.KernelIdeal.S1600000 32) (n : Fin 100000) :
    Cert.KernelIdeal.KSide.invTerm (F := Ideal) dS (ix2 n (0 : Fin 1)) = Ideal.div oneE (max (degAt dS n) oneE) := by
  refine (inv_of_deg (Cert.KernelIdeal.KSide.degTerm (F := Ideal) dS) n).trans ?_
  rw [degTerm_eq, Cert.ReferenceIdeal.RefSide.degTerm_apply]

/-! ## One layer -/

/-- The kernel's dense tail on its sorted sums is the reference's layer on the unsorted edges. -/
theorem layer_bridge (relu : Bool) (feat : FVec Ideal Cert.KernelIdeal.S100000x64 .f32)
    (Wl Wr : FVec Ideal Cert.KernelIdeal.S64x64 .f32) (b : FVec Ideal Cert.KernelIdeal.S64 .f32)
    (src dst sS dS : IVec Cert.KernelIdeal.S1600000 32) (π : Equiv.Perm (Fin 1600000))
    (hs : ∀ e : Fin 1600000, sS (Shape.Idx.ofFin e) = src (Shape.Idx.ofFin (π e)))
    (hd : ∀ e : Fin 1600000, dS (Shape.Idx.ofFin e) = dst (Shape.Idx.ofFin (π e))) :
    denseK relu (Cert.KernelIdeal.KSide.aggTerm (F := Ideal) feat sS dS) feat (Cert.KernelIdeal.KSide.invTerm (F := Ideal) dS)
        Wl Wr (Cert.KernelIdeal.KSide.browTerm (F := Ideal) b)
      = denseR relu (Cert.ReferenceIdeal.RefSide.aggTerm (F := Ideal) feat src dst) feat
          (Cert.ReferenceIdeal.RefSide.degTerm (F := Ideal) dst) Wl Wr b := by
  have hagg : Cert.KernelIdeal.KSide.aggTerm (F := Ideal) feat sS dS = Cert.ReferenceIdeal.RefSide.aggTerm (F := Ideal) feat src dst := by
    rw [aggTerm_eq]
    funext i
    obtain ⟨p, q, rfl⟩ : ∃ (p : Fin 100000) (q : Fin 64), i = ix2 p q := ⟨i 0, i 1, eq_ix2 i⟩
    rw [Cert.ReferenceIdeal.RefSide.aggTerm_apply, Cert.ReferenceIdeal.RefSide.aggTerm_apply]
    exact aggAt_perm feat src dst sS dS π hs hd p q
  rw [hagg]
  refine denseK_eq_denseR relu _ feat dst _ _ Wl Wr _ b
    (fun n => Cert.ReferenceIdeal.RefSide.degTerm_apply dst n)
    (fun n => (invTerm_apply dS n).trans (by rw [degAt_perm dst dS π hd n]))
    (fun j => browTerm_apply b j)

/-! ## The run: the three launches -/

section Run

open Cert.KernelIdeal Cert.KernelIdeal.Gen Cert.KernelIdeal.KSide

variable (m : (ℓ : Loc nD τ sig) → Buf (Elt Ideal) ℓ) (ρ : Dev nD → PrngReg) (c : Dev nD)

/-- The permutation of the edges the stable sort of the destinations realises. -/
def edgePerm : Equiv.Perm (Fin 1600000) :=
  Cert.SortTake.sortPerm comparator_i32_i32_d0 (m ((c : Thread nD τ).loc main_arg11))

/-- The sorted sources are the sources read through that permutation, -/
theorem srcS_apply (e : Fin 1600000) :
    srcS m c (Shape.Idx.ofFin e) = (m ((c : Thread nD τ).loc main_arg10)) (Shape.Idx.ofFin (edgePerm m c e)) := by
  dsimp only [srcS, takeTerm, ordTerm, edgePerm]
  exact Cert.SortTake.argsort_take (n := 1600000) (by norm_num) (by norm_num) comparator_i32_i32_d0 (m ((c : Thread nD τ).loc main_arg11))
    gather_S1600000_S1600000x1_S1600000_n_0_n_n_0_1_1 rfl rfl rfl rfl bcast_S_S1600000 bcast_S1600000_S1600000x1_0
    (broadcastInDim S1600000 ![] bcast_S_S1600000 (constantI S_ 32 1600000#32)) (m ((c : Thread nD τ).loc main_arg10)) e

/-- and the sorted destinations the destinations. -/
theorem dstS_apply (e : Fin 1600000) :
    dstS m c (Shape.Idx.ofFin e) = (m ((c : Thread nD τ).loc main_arg11)) (Shape.Idx.ofFin (edgePerm m c e)) := by
  dsimp only [dstS, takeTerm, ordTerm, edgePerm]
  exact Cert.SortTake.argsort_take (n := 1600000) (by norm_num) (by norm_num) comparator_i32_i32_d0 (m ((c : Thread nD τ).loc main_arg11))
    gather_S1600000_S1600000x1_S1600000_n_0_n_n_0_1_1 rfl rfl rfl rfl bcast_S_S1600000 bcast_S1600000_S1600000x1_0
    (broadcastInDim S1600000 ![] bcast_S_S1600000 (constantI S_ 32 1600000#32)) (m ((c : Thread nD τ).loc main_arg11)) e

/-- THE FIRST LAUNCH leaves the positive part of the reference's first layer. -/
theorem first_eq : (W3 m ρ c (Proc.devRef .tc main_v37))
    = Cert.ReferenceIdeal.RefSide.reluTerm (F := Ideal) (Cert.ReferenceIdeal.RefSide.layerTerm (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))) := by
  rw [W3_v37, Cert.KernelIdeal.KBlocks.arr0 (V2 m ρ) c]
  show denseK true (W2 m ρ c (Proc.devRef .tc main_v35)) (W2 m ρ c (Proc.devRef .tc main_arg0)) (W2 m ρ c (Proc.devRef .tc main_v23)) (W2 m ρ c (Proc.devRef .tc main_arg1)) (W2 m ρ c (Proc.devRef .tc main_arg2)) (W2 m ρ c (Proc.devRef .tc main_v36)) = _
  rw [W2_v35, W2_arg0, W2_v23, W2_arg1, W2_arg2, W2_v36,
    layer_bridge true _ _ _ _ (m ((c : Thread nD τ).loc main_arg10)) (m ((c : Thread nD τ).loc main_arg11)) (srcS m c) (dstS m c) (edgePerm m c) (srcS_apply m c) (dstS_apply m c),
    ← Cert.ReferenceIdeal.RefSide.relu_layerTerm_eq]

/-- THE SECOND LAUNCH leaves the positive part of the reference's second layer of what the first left. -/
theorem second_eq : (W5 m ρ c (Proc.devRef .tc main_v51))
    = Cert.ReferenceIdeal.RefSide.reluTerm (F := Ideal) (Cert.ReferenceIdeal.RefSide.layerTerm (F := Ideal) (W3 m ρ c (Proc.devRef .tc main_v37)) (m ((c : Thread nD τ).loc main_arg4)) (m ((c : Thread nD τ).loc main_arg5)) (m ((c : Thread nD τ).loc main_arg6)) (m ((c : Thread nD τ).loc main_arg10)) (m ((c : Thread nD τ).loc main_arg11))) := by
  rw [W5_v51, Cert.KernelIdeal.KBlocks.arr1 (V4 m ρ) c]
  show denseK true (W4 m ρ c (Proc.devRef .tc main_v49)) (W4 m ρ c (Proc.devRef .tc main_v37)) (W4 m ρ c (Proc.devRef .tc main_v23)) (W4 m ρ c (Proc.devRef .tc main_arg4)) (W4 m ρ c (Proc.devRef .tc main_arg5)) (W4 m ρ c (Proc.devRef .tc main_v50)) = _
  rw [W4_v49, W4_v37, W4_v23, W4_arg4, W4_arg5, W4_v50, W3_v7, W3_v14, W3_v23, W3_arg4, W3_arg5, W3_arg6,
    W2_v7, W2_v14, W2_v23, W2_arg4, W2_arg5, W2_arg6,
    layer_bridge true _ _ _ _ (m ((c : Thread nD τ).loc main_arg10)) (m ((c : Thread nD τ).loc main_arg11)) (srcS m c) (dstS m c) (edgePerm m c) (srcS_apply m c) (dstS_apply m c),
    ← Cert.ReferenceIdeal.RefSide.relu_layerTerm_eq]

/-- THE THIRD LAUNCH leaves the reference's third layer of what the second left. -/
theorem third_eq : (W7 m ρ c (Proc.devRef .tc main_v65))
    = Cert.ReferenceIdeal.RefSide.layerTerm (F := Ideal) (W5 m ρ c (Proc.devRef .tc main_v51)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W7_v65, Cert.KernelIdeal.KBlocks.arr2 (V6 m ρ) c]
  show denseK false (W6 m ρ c (Proc.devRef .tc main_v63)) (W6 m ρ c (Proc.devRef .tc main_v51)) (W6 m ρ c (Proc.devRef .tc main_v23)) (W6 m ρ c (Proc.devRef .tc main_arg7)) (W6 m ρ c (Proc.devRef .tc main_arg8)) (W6 m ρ c (Proc.devRef .tc main_v64)) = _
  rw [W6_v63, W6_v51, W6_v23, W6_arg7, W6_arg8, W6_v64, W5_v7, W5_v14, W5_v23, W5_arg7, W5_arg8, W5_arg9,
    W4_v7, W4_v14, W4_v23, W4_arg7, W4_arg8, W4_arg9, W3_v7, W3_v14, W3_v23, W3_arg7, W3_arg8, W3_arg9,
    W2_v7, W2_v14, W2_v23, W2_arg7, W2_arg8, W2_arg9,
    layer_bridge false _ _ _ _ (m ((c : Thread nD τ).loc main_arg10)) (m ((c : Thread nD τ).loc main_arg11)) (srcS m c) (dstS m c) (edgePerm m c) (srcS_apply m c) (dstS_apply m c),
    ← Cert.ReferenceIdeal.RefSide.layerTerm_eq]

/-- THE RESULT: the reference's three layers of the arguments. -/
theorem result_eq : (W7 m ρ c (Proc.devRef .tc main_v65))
    = Cert.ReferenceIdeal.RefSide.layerTerm (F := Ideal)
        (Cert.ReferenceIdeal.RefSide.reluTerm (F := Ideal) (Cert.ReferenceIdeal.RefSide.layerTerm (F := Ideal)
          (Cert.ReferenceIdeal.RefSide.reluTerm (F := Ideal) (Cert.ReferenceIdeal.RefSide.layerTerm (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))))
          (m ((c : Thread nD τ).loc main_arg4)) (m ((c : Thread nD τ).loc main_arg5)) (m ((c : Thread nD τ).loc main_arg6)) (m ((c : Thread nD τ).loc main_arg10)) (m ((c : Thread nD τ).loc main_arg11))))
        (m ((c : Thread nD τ).loc main_arg7)) (m ((c : Thread nD τ).loc main_arg8)) (m ((c : Thread nD τ).loc main_arg9)) (m ((c : Thread nD τ).loc main_arg10)) (m ((c : Thread nD τ).loc main_arg11)) := by
  rw [third_eq, second_eq, first_eq]

end Run

end Cert.Bridge

end
-- ==== Proof.lean ====
/-
  A three-layer graph convolution, written as a kernel, against its plain reference, over the extended reals.

  Per layer the reference gathers each edge's source row, sums the rows onto the edges' destination nodes,
  divides by the in-degree (at least one), multiplies by the left weight, adds the bias and the node's own row
  times the right weight, and (in the first two layers) takes the positive part.  The kernel first sorts the edges
  by destination and works through the sorted arrays, takes the reciprocal of the in-degree once, gathers through
  a narrower float format, and computes the dense part of each layer in a launch over twenty blocks of five
  thousand nodes: the summed rows times the reciprocal, the two products, their sum, the bias, the positive part.

  Over the extended reals the two agree, for every input, finite or not and whatever the edge words are: the
  sorted arrays are the original ones read through a permutation of the edges, and the sum over the edges landing
  on a node does not depend on their order; a change of float format is the identity; the in-degree is a natural
  number, so dividing by its maximum with one is multiplying by the reciprocal, at the infinities too; and
  addition is commutative and associative, so the bias may come before or after the second product.  Nothing uses
  the finiteness of the inputs.  The ideal pass rewrote nothing, so the kernel's idealization is its own text.
-/
import proofs.«427492_j7026566496443_3_alg».proof.Defs
import proofs.«427492_j7026566496443_3_alg».proof.Proof.Gen.Kernel
import proofs.«427492_j7026566496443_3_alg».proof.Proof.Gen.Kernel.Skeleton
import proofs.«427492_j7026566496443_3_alg».proof.Proof.Gen.Kernel.Launch
import proofs.«427492_j7026566496443_3_alg».proof.Proof.Gen.Kernel.Points
import proofs.«427492_j7026566496443_3_alg».proof.Proof.Gen.Kernel.Frame
import proofs.«427492_j7026566496443_3_alg».proof.Proof.Gen.KernelIdeal
import proofs.«427492_j7026566496443_3_alg».proof.Proof.Gen.KernelIdeal.Skeleton
import proofs.«427492_j7026566496443_3_alg».proof.Proof.Gen.KernelIdeal.Launch
import proofs.«427492_j7026566496443_3_alg».proof.Proof.Gen.KernelIdeal.Points
import proofs.«427492_j7026566496443_3_alg».proof.Proof.Gen.KernelIdeal.Frame
import proofs.«427492_j7026566496443_3_alg».proof.Proof.Gen.ReferenceIdeal
import proofs.«427492_j7026566496443_3_alg».proof.Proof.Gen.ReferenceIdeal.Run
import proofs.«427492_j7026566496443_3_alg».proof.Proof.Gen.Pre_finite_inputs
import proofs.«427492_j7026566496443_3_alg».proof.Proof.KRun
import proofs.«427492_j7026566496443_3_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the reference's three layers of the arguments:
    the kernel's result array is what its last launch leaves, which is the third layer of what the second leaves,
    and so down to the arguments; the reference's result is that term by its run. -/
theorem algebraic : Cert.algebraic_KernelIdeal_ReferenceIdeal := by
  intro m ρ m' ρ' _ hagree
  refine ⟨fun c => Cert.KernelIdeal.Gen.W7 m ρ c (Proc.devRef .tc Cert.KernelIdeal.main_v65),
    Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.RefSide.res_eq, h0, h1, h2, h3, h4, h5, h6, h7, h8, h9, h10, h11]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
